-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128x128 : Shape := ⟨4, ![8, 512, 128, 128]⟩
abbrev S8x19x128x128 : Shape := ⟨4, ![8, 19, 128, 128]⟩
abbrev S_ : Shape := ⟨0, ![]⟩

class Facts : Prop where
  bcast_S_S8x512x128x128 : S_.BroadcastsInDim S8x512x128x128 (![] : Fin 0 → Fin S8x512x128x128.rank)
  reducesTo_S8x512x128x128_S_d0_1_2_3 : S8x512x128x128.ReducesTo [0, 1, 2, 3] S_
  h_S_ : 0 < S_.numel
  bcast_S_S8x19x128x128 : S_.BroadcastsInDim S8x19x128x128 (![] : Fin 0 → Fin S8x19x128x128.rank)
  reducesTo_S8x19x128x128_S_d0_1_2_3 : S8x19x128x128.ReducesTo [0, 1, 2, 3] S_

variable [Facts]

def fn {F : FTy → Type} [FloatOps F] (main_arg0 : FVec F S8x512x128x128 .f32) (main_arg1 : FVec F S8x19x128x128 .f32) : IVec S_ 1 :=
  let main_v0 : FVec F S8x512x128x128 .f32 := Host.absf main_arg0
  let main_cst : FVec F S_ .f32 := constant S_ .f32 0x7F800000#32
  let main_v1 : FVec F S8x512x128x128 .f32 := broadcastInDim S8x512x128x128 ![] bcast_S_S8x512x128x128 main_cst
  let main_v2 : IVec S8x512x128x128 1 := cmpf .olt main_v0 main_v1
  let main_c : IVec S_ 1 := constantI S_ 1 1#1
  let main_v3 : IVec S_ 1 := (fun x v => Host.reduce IntOp.andi x v reducesTo_S8x512x128x128_S_d0_1_2_3 h_S_) main_v2 main_c
  let main_v4 : FVec F S8x19x128x128 .f32 := Host.absf main_arg1
  let main_cst_0 : FVec F S_ .f32 := constant S_ .f32 0x7F800000#32
  let main_v5 : FVec F S8x19x128x128 .f32 := broadcastInDim S8x19x128x128 ![] bcast_S_S8x19x128x128 main_cst_0
  let main_v6 : IVec S8x19x128x128 1 := cmpf .olt main_v4 main_v5
  let main_c_1 : IVec S_ 1 := constantI S_ 1 1#1
  let main_v7 : IVec S_ 1 := (fun x v => Host.reduce IntOp.andi x v reducesTo_S8x19x128x128_S_d0_1_2_3 h_S_) main_v6 main_c_1
  let main_v8 : IVec S_ 1 := andi main_v3 main_v7
  main_v8
-- ==== Kernel.lean ====
abbrev S8x512x128x128 : Shape := ⟨4, ![8, 512, 128, 128]⟩
abbrev S8x19x128x128 : Shape := ⟨4, ![8, 19, 128, 128]⟩
abbrev S8x512x16384 : Shape := ⟨3, ![8, 512, 16384]⟩
abbrev S8x19x16384 : Shape := ⟨3, ![8, 19, 16384]⟩
abbrev S8x2x128x19 : Shape := ⟨4, ![8, 2, 128, 19]⟩
abbrev S1x19x16384 : Shape := ⟨3, ![1, 19, 16384]⟩
abbrev S1x128x16384 : Shape := ⟨3, ![1, 128, 16384]⟩
abbrev S1x1x128x19 : Shape := ⟨4, ![1, 1, 128, 19]⟩
abbrev S19x16384 : Shape := ⟨2, ![19, 16384]⟩
abbrev S19 : Shape := ⟨1, ![19]⟩
abbrev S19x1 : Shape := ⟨2, ![19, 1]⟩
abbrev S128x16384 : Shape := ⟨2, ![128, 16384]⟩
abbrev S128x19 : Shape := ⟨2, ![128, 19]⟩
abbrev S8x2x1x128x19 : Shape := ⟨5, ![8, 2, 1, 128, 19]⟩
abbrev S8x2x2x128x19 : Shape := ⟨5, ![8, 2, 2, 128, 19]⟩
abbrev S8x512x19 : Shape := ⟨3, ![8, 512, 19]⟩
abbrev S8x512x19x1 : Shape := ⟨4, ![8, 512, 19, 1]⟩

abbrev nBuf : Space → Nat
  | .hbm => 11
  | .vmem => 11
  | .smem => 0
  | _ => 0

abbrev bufTy : (tb : Table) → Fin (tcTables nBuf tb) → BufTy
  | .hbm, ⟨0, _⟩ => ⟨S8x512x128x128, .f32⟩
  | .hbm, ⟨1, _⟩ => ⟨S8x19x128x128, .f32⟩
  | .hbm, ⟨2, _⟩ => ⟨S8x512x16384, .f32⟩
  | .hbm, ⟨3, _⟩ => ⟨S8x19x16384, .f32⟩
  | .hbm, ⟨4, _⟩ => ⟨S8x2x128x19, .f32⟩
  | .hbm, ⟨5, _⟩ => ⟨S8x2x128x19, .f32⟩
  | .hbm, ⟨6, _⟩ => ⟨S8x2x1x128x19, .f32⟩
  | .hbm, ⟨7, _⟩ => ⟨S8x2x1x128x19, .f32⟩
  | .hbm, ⟨8, _⟩ => ⟨S8x2x2x128x19, .f32⟩
  | .hbm, ⟨9, _⟩ => ⟨S8x512x19, .f32⟩
  | .hbm, ⟨10, _⟩ => ⟨S8x512x19x1, .f32⟩
  | .local _ .vmem, ⟨0, _⟩ => ⟨S1x19x16384, .f32⟩
  | .local _ .vmem, ⟨1, _⟩ => ⟨S1x19x16384, .f32⟩
  | .local _ .vmem, ⟨2, _⟩ => ⟨S1x128x16384, .f32⟩
  | .local _ .vmem, ⟨3, _⟩ => ⟨S1x128x16384, .f32⟩
  | .local _ .vmem, ⟨4, _⟩ => ⟨S1x128x16384, .f32⟩
  | .local _ .vmem, ⟨5, _⟩ => ⟨S1x128x16384, .f32⟩
  | .local _ .vmem, ⟨6, _⟩ => ⟨S1x1x128x19, .f32⟩
  | .local _ .vmem, ⟨7, _⟩ => ⟨S1x1x128x19, .f32⟩
  | .local _ .vmem, ⟨8, _⟩ => ⟨S1x1x128x19, .f32⟩
  | .local _ .vmem, ⟨9, _⟩ => ⟨S1x1x128x19, .f32⟩
  | .local _ .vmem, ⟨10, _⟩ => ⟨S19x16384, .f32⟩
  | _, _ => ⟨S8x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, v1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x19x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x19 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x19 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8x512x128x128_S8x512x16384 : S8x512x128x128.ShapeCasts S8x512x16384
  shapeCasts_S8x19x128x128_S8x19x16384 : S8x19x128x128.ShapeCasts S8x19x16384
  inb_S1x19x16384_S1x19x16384_0_0_0 : ∀ a, (![0, 0, 0] : Fin 3 → Nat) a + S1x19x16384.size a ≤ S1x19x16384.size a
  h_S1x19x16384 : 0 < S1x19x16384.numel
  shapeCasts_S1x19x16384_S19x16384 : S1x19x16384.ShapeCasts S19x16384
  reduces_S19x16384_S19 : S19x16384.Reduces [1] S19
  shapeCasts_S19_S19x1 : S19.ShapeCasts S19x1
  broadcasts_S19x1_S19x16384 : S19x1.Broadcasts S19x16384
  inb_S19x16384_S19x16384_0_0 : ∀ a, (![0, 0] : Fin 2 → Nat) a + S19x16384.size a ≤ S19x16384.size a
  h_S19x16384 : 0 < S19x16384.numel
  shapeCasts_S19x16384_S19x16384 : S19x16384.ShapeCasts S19x16384
  inb_S1x128x16384_S1x128x16384_0_0_0 : ∀ a, (![0, 0, 0] : Fin 3 → Nat) a + S1x128x16384.size a ≤ S1x128x16384.size a
  h_S1x128x16384 : 0 < S1x128x16384.numel
  shapeCasts_S1x128x16384_S128x16384 : S1x128x16384.ShapeCasts S128x16384
  inb_S1x1x128x19_S1x1x128x19_0_0_0_0 : ∀ a, (![0, 0, 0, 0] : Fin 4 → Nat) a + S1x1x128x19.size a ≤ S1x1x128x19.size a
  h_S1x1x128x19 : 0 < S1x1x128x19.numel
  shapeCasts_S1x1x128x19_S128x19 : S1x1x128x19.ShapeCasts S128x19
  shapeCasts_S128x19_S1x1x128x19 : S128x19.ShapeCasts S1x1x128x19
  bcast_S8x2x128x19_S8x2x1x128x19_0_1_3_4 : S8x2x128x19.BroadcastsInDim S8x2x1x128x19 (![0, 1, 3, 4] : Fin 4 → Fin S8x2x1x128x19.rank)
  concatenates_S8x2x1x128x19_S8x2x1x128x19_S8x2x2x128x19_d2 : Shape.Concatenates [S8x2x1x128x19, S8x2x1x128x19] S8x2x2x128x19 2
  shapeCasts_S8x2x2x128x19_S8x512x19 : S8x2x2x128x19.ShapeCasts S8x512x19
  bcast_S8x512x19_S8x512x19x1_0_1_2 : S8x512x19.BroadcastsInDim S8x512x19x1 (![0, 1, 2] : Fin 3 → Fin S8x512x19x1.rank)
  dot_S128x16384_S19x16384_S128x19_1_1_0_0_n_n_wf : DotDims.WF S128x16384 S19x16384 S128x19 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x16384.size a ≤ S8x19x16384.size a
  hwx0_0 : ∀ i : grid0.Coords, EltTy.bits .f32 = 32 ∨ (Rect.block (s := S8x19x16384) S1x19x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x16384.size a ≤ S8x512x16384.size a
  hwx0_1 : ∀ i : grid0.Coords, EltTy.bits .f32 = 32 ∨ (Rect.block (s := S8x512x16384) S1x128x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x16384.size a ≤ S8x512x16384.size a
  hwx0_2 : ∀ i : grid0.Coords, EltTy.bits .f32 = 32 ∨ (Rect.block (s := S8x512x16384) S1x128x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128x19.size a ≤ S8x2x128x19.size a
  hwx0_3 : ∀ i : grid0.Coords, EltTy.bits .f32 = 32 ∨ (Rect.block (s := S8x2x128x19) S1x1x128x19.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128x19.size a ≤ S8x2x128x19.size a
  hwx0_4 : ∀ i : grid0.Coords, EltTy.bits .f32 = 32 ∨ (Rect.block (s := S8x2x128x19) S1x1x128x19.size (cc0_transform_4 i) (hinb0_4 i)).WholeWords (EltTy.packing .f32)

variable [Facts₀]

def dot_S128x16384_S19x16384_S128x19_1_1_0_0_n_n : DotDims S128x16384 S19x16384 S128x19 where
  lhsContracting := [1]
  rhsContracting := [1]
  lhsNonContracting := [0]
  rhsNonContracting := [0]
  lhsBatch := []
  rhsBatch := []
  wf := dot_S128x16384_S19x16384_S128x19_1_1_0_0_n_n_wf

abbrev win0_0 : Pipeline.Window sig grid0 :=
  Pipeline.Window.ofSpec (Memref.whole main_v1) S1x19x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x1x128x19.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x1x128x19.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x512x128x128 : Shape := ⟨4, ![8, 512, 128, 128]⟩
abbrev S8x19x128x128 : Shape := ⟨4, ![8, 19, 128, 128]⟩
abbrev S8x19x16384 : Shape := ⟨3, ![8, 19, 16384]⟩
abbrev S8x512x16384 : Shape := ⟨3, ![8, 512, 16384]⟩
abbrev S_ : Shape := ⟨0, ![]⟩
abbrev S8x19 : Shape := ⟨2, ![8, 19]⟩
abbrev S8x19x1 : Shape := ⟨3, ![8, 19, 1]⟩
abbrev S8x19x512 : Shape := ⟨3, ![8, 19, 512]⟩
abbrev S8x512x19 : Shape := ⟨3, ![8, 512, 19]⟩
abbrev S8x512x19x1 : Shape := ⟨4, ![8, 512, 19, 1]⟩

abbrev nBuf : Space → Nat
  | .hbm => 24
  | .vmem => 0
  | .smem => 0
  | _ => 0

abbrev bufTy : (tb : Table) → Fin (tcTables nBuf tb) → BufTy
  | .hbm, ⟨0, _⟩ => ⟨S8x512x128x128, .f32⟩
  | .hbm, ⟨1, _⟩ => ⟨S8x19x128x128, .f32⟩
  | .hbm, ⟨2, _⟩ => ⟨S8x19x16384, .f32⟩
  | .hbm, ⟨3, _⟩ => ⟨S8x512x16384, .f32⟩
  | .hbm, ⟨4, _⟩ => ⟨S_, .f32⟩
  | .hbm, ⟨5, _⟩ => ⟨S8x19x16384, .f32⟩
  | .hbm, ⟨6, _⟩ => ⟨S8x19x16384, .f32⟩
  | .hbm, ⟨7, _⟩ => ⟨S_, .f32⟩
  | .hbm, ⟨8, _⟩ => ⟨S8x19, .f32⟩
  | .hbm, ⟨9, _⟩ => ⟨S_, .f32⟩
  | .hbm, ⟨10, _⟩ => ⟨S8x19, .f32⟩
  | .hbm, ⟨11, _⟩ => ⟨S8x19, .f32⟩
  | .hbm, ⟨12, _⟩ => ⟨S8x19x1, .f32⟩
  | .hbm, ⟨13, _⟩ => ⟨S8x19x16384, .f32⟩
  | .hbm, ⟨14, _⟩ => ⟨S8x19x16384, .f32⟩
  | .hbm, ⟨15, _⟩ => ⟨S8x19x16384, .f32⟩
  | .hbm, ⟨16, _⟩ => ⟨S_, .f32⟩
  | .hbm, ⟨17, _⟩ => ⟨S8x19, .f32⟩
  | .hbm, ⟨18, _⟩ => ⟨S8x19x1, .f32⟩
  | .hbm, ⟨19, _⟩ => ⟨S8x19x16384, .f32⟩
  | .hbm, ⟨20, _⟩ => ⟨S8x19x16384, .f32⟩
  | .hbm, ⟨21, _⟩ => ⟨S8x19x512, .f32⟩
  | .hbm, ⟨22, _⟩ => ⟨S8x512x19, .f32⟩
  | .hbm, ⟨23, _⟩ => ⟨S8x512x19x1, .f32⟩
  | _, _ => ⟨S8x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S8x19x128x128_S8x19x16384 : S8x19x128x128.ShapeCasts S8x19x16384
  shapeCasts_S8x512x128x128_S8x512x16384 : S8x512x128x128.ShapeCasts S8x512x16384
  bcast_S_S8x19x16384 : S_.BroadcastsInDim S8x19x16384 (![] : Fin 0 → Fin S8x19x16384.rank)
  reducesTo_S8x19x16384_S8x19_d2 : S8x19x16384.ReducesTo [2] S8x19
  h_S_ : 0 < S_.numel
  bcast_S_S8x19 : S_.BroadcastsInDim S8x19 (![] : Fin 0 → Fin S8x19.rank)
  bcast_S8x19_S8x19x1_0_1 : S8x19.BroadcastsInDim S8x19x1 (![0, 1] : Fin 2 → Fin S8x19x1.rank)
  bcast_S8x19x1_S8x19x16384_0_1_2 : S8x19x1.BroadcastsInDim S8x19x16384 (![0, 1, 2] : Fin 3 → Fin S8x19x16384.rank)
  transposes_S8x19x512_S8x512x19_0_2_1 : S8x19x512.Transposes [0, 2, 1] S8x512x19
  bcast_S8x512x19_S8x512x19x1_0_1_2 : S8x512x19.BroadcastsInDim S8x512x19x1 (![0, 1, 2] : Fin 3 → Fin S8x512x19x1.rank)
  dot_S8x19x16384_S8x512x16384_S8x19x512_2_2_1_1_0_0_wf : DotDims.WF S8x19x16384 S8x512x16384 S8x19x512 [2] [2] [1] [1] [0] [0]

variable [Facts₀]

def dot_S8x19x16384_S8x512x16384_S8x19x512_2_2_1_1_0_0 : DotDims S8x19x16384 S8x512x16384 S8x19x512 where
  lhsContracting := [2]
  rhsContracting := [2]
  lhsNonContracting := [1]
  rhsNonContracting := [1]
  lhsBatch := [0]
  rhsBatch := [0]
  wf := dot_S8x19x16384_S8x512x16384_S8x19x512_2_2_1_1_0_0_wf

class Facts : Prop extends Facts₀ where

variable [Facts]
-- ==== Proof.KB.Kit.lean ====
/-
  The word-level kernel's frame, first part: what everything later is stated over.

  @main is two reshapes (the features to [8, 512, 16384], the scores to [8, 19, 16384]), one kernel region on a
  grid of 8 × 2 points, and five layout operations on the region's two results. This module names the contents of
  the TensorCore's buffers when the region is entered (the launch contents after the two reshapes), each window's
  block at a grid point read off those contents, the staging memrefs the body is called with, the scratch memref,
  and the body's one branch condition in closed form: it holds exactly at the even points, the first of the two
  points of each batch row. Generic in the float instance.
-/
import proofs.«176334_g94489280978_feedfinal_143_10_alg».proof.Proof.Gen.Kernel.Launch
import proofs.«176334_g94489280978_feedfinal_143_10_alg».proof.Proof.Gen.Kernel.Skeleton
import proofs.«176334_g94489280978_feedfinal_143_10_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the region's entry -/

/-- Core `c`'s buffers at launch, as a valuation. -/
abbrev W0 (c : Dev nD) : Valuation τ sig (Elt F) := fun b => m (c, b)
/-- After the two reshapes: what the region is entered from. -/
abbrev W1 (c : Dev nD) : Valuation τ sig (Elt F) := StableHlo.after hostOps0 (W0 m c)
/-- The same read at a TensorCore reference. -/
abbrev V1 (c : Dev nD) (b : Ref sig .tc) : Buf (Elt F) ((c : Thread nD τ).loc b) := W1 m c b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-! ## The memrefs the body is called with -/

abbrev ms0_0 (t : Fin cfg0.N) : Memref sig .tc .vmem S1x19x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x16384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x16384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128x19 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128x19 .f32 := win0_4.stage (cfg0.slots t 4)
abbrev hs0_4 (t : Fin cfg0.N) : (ms0_4 t).IsWhole := hstage0_4 ((cfg0.slots t 4).cast nbuf0_4)
/-- The scratch: a whole scoped buffer of the kernel's own, the softmax weights of the current batch row. -/
abbrev scM : Memref sig .tc .vmem S19x16384 .f32 := Memref.whole cc0_scratch0

/-! ## The body's branch -/

/-- The body's one condition, from the grid coordinates: the second coordinate is zero. -/
abbrev cond0 (i : grid0.Coords) : Prop :=
  (Scalar.cmpi .ne (Scalar.extui (Scalar.cmpi .eq (BitVec.ofNat 32 (i 1).val) 0#32)) 0#32) = 1#1
/-- It holds exactly at the even points. -/
theorem hcond0 : ∀ t : Fin cfg0.N, cond0 (grid0.coords t) ↔ t.val % 2 = 0 :=
  (by decide +kernel : ∀ t : Fin grid0.N, cond0 (grid0.coords t) ↔ t.val % 2 = 0)

/-! ## No window is ever idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-- The scores window sees the same block at the two points of a batch row. -/
theorem index0_odd : ∀ t : Fin cfg0.N, (ho : t.val % 2 = 1) →
    (cfg0.win 0).index t = (cfg0.win 0).index ⟨t.val - 1, Nat.lt_of_le_of_lt (Nat.sub_le _ _) t.isLt⟩ :=
  (by decide +kernel : ∀ t : Fin grid0.N, (ho : t.val % 2 = 1) →
    win0_0.index t = win0_0.index ⟨t.val - 1, Nat.lt_of_le_of_lt (Nat.sub_le _ _) t.isLt⟩)

/-! ## The class invariant, the scratch named -/

/-- What the launch hands the region beside the windows: the scratch at some contents, the generator register at
    some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Frm

end
-- ==== Proof.KB.Body.lean ====
/-
  The word-level kernel's body as two triples, one per case of its branch.

  At the first point of a batch row (the branch taken) the body computes the row's softmax weights from the scores
  block — the exponential of each score less its row's maximum, times the reciprocal of the row's sum of those —,
  stores them into the scratch whatever it held, and then stores each of the two products (a feature block against
  the weights, contracted over the spatial axis) into its output block. At the second point (the branch not taken)
  it reads the scratch as the first point left it and stores the same two products. Either way the three input
  blocks are as they were and each output block holds its payload whatever it held before. Both triples are stated
  over the generated payload names, on any whole memrefs, for any float instance.
-/
import proofs.«176334_g94489280978_feedfinal_143_10_alg».proof.Proof.KB.Kit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One store through the whole of a view, read back, is its payload, whatever the view held. -/
theorem read_writes_whole {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, by
    subst h; show y ∈ (Rect.whole S).set; rw [Rect.set_whole]; exact Finset.mem_univ y⟩), View.canon_unit_zero h]

theorem hz2 : (![0, 0] : Fin 2 → Nat) = fun _ => 0 := by funext a; fin_cases a <;> rfl
theorem hz3 : (![0, 0, 0] : Fin 3 → Nat) = fun _ => 0 := by funext a; fin_cases a <;> rfl
theorem hz4 : (![0, 0, 0, 0] : Fin 4 → Nat) = fun _ => 0 := by funext a; fin_cases a <;> rfl

set_option maxHeartbeats 1000000 in
/-- The branch taken: the scratch is overwritten with the weights of the scores block, and both outputs are
    products against those weights. -/
theorem kernelRun_first (c : Dev nD) (i : grid0.Coords) (arg2 : Memref sig .tc .vmem S1x19x16384 .f32) (harg2 : arg2.IsWhole) (arg3 : Memref sig .tc .vmem S1x128x16384 .f32) (harg3 : arg3.IsWhole) (arg4 : Memref sig .tc .vmem S1x128x16384 .f32) (harg4 : arg4.IsWhole) (arg5 : Memref sig .tc .vmem S1x1x128x19 .f32) (harg5 : arg5.IsWhole) (arg6 : Memref sig .tc .vmem S1x1x128x19 .f32) (harg6 : arg6.IsWhole) (arg7 : Memref sig .tc .vmem S19x16384 .f32) (harg7 : arg7.IsWhole) (hc : cond0 i)
    (x0 : Vec F S1x19x16384 .f32) (x1 x2 : Vec F S1x128x16384 .f32) (d5 d6 : Vec F S1x1x128x19 .f32) (d7 : Vec F S19x16384 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare d6 ∗ owns (c : Thread nD τ) arg7 fullShare d7
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 (k0_pay1 x0) x1) ∗ owns (c : Thread nD τ) arg6 fullShare (k0_pay3 (k0_pay1 x0) x2)
            ∗ owns (c : Thread nD τ) arg7 fullShare (k0_pay1 x0)) -∗ K ⟨⟩))
      ⊢ wp frame (wpE (defs₀ (F := F)) Variants.none c none) E (cc0_css_softmax_pool i arg2 harg2 arg3 harg3 arg4 harg4 arg5 harg5 arg6 harg6 arg7 harg7) K := by
  simp only [cc0_css_softmax_pool_eq_skeleton]; unfold cc0_css_softmax_pool_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap; · iexact H5
    ipureintro
    refine (read_writes_whole _ _ hz4 _ _).trans ?_
    sl_unfold_words
    simp only [View.readAt_eq_ld, harg2.read_unread, harg3.read_unread, View.ld_unit_zero (S := S1x19x16384) hz3,
      View.ld_unit_zero (S := S1x128x16384) hz3, View.readCov_unit_zero (S := S19x16384) _ hz2]
  isplitl [H6]
  · iexists _; isplitr; swap; · iexact H6
    ipureintro
    refine (read_writes_whole _ _ hz4 _ _).trans ?_
    sl_unfold_words
    simp only [View.readAt_eq_ld, harg2.read_unread, harg4.read_unread, View.ld_unit_zero (S := S1x19x16384) hz3,
      View.ld_unit_zero (S := S1x128x16384) hz3, View.readCov_unit_zero (S := S19x16384) _ hz2]
  · iexists _; isplitr; swap; · iexact H7
    ipureintro
    sl_unfold_words
    refine (read_writes_whole _ _ hz2 _ _).trans ?_
    simp only [View.readAt_eq_ld, harg2.read_unread, View.ld_unit_zero (S := S1x19x16384) hz3]

set_option maxHeartbeats 1000000 in
/-- The branch not taken: the scratch is read as it was found, and both outputs are products against it. -/
theorem kernelRun_later (c : Dev nD) (i : grid0.Coords) (arg2 : Memref sig .tc .vmem S1x19x16384 .f32) (harg2 : arg2.IsWhole) (arg3 : Memref sig .tc .vmem S1x128x16384 .f32) (harg3 : arg3.IsWhole) (arg4 : Memref sig .tc .vmem S1x128x16384 .f32) (harg4 : arg4.IsWhole) (arg5 : Memref sig .tc .vmem S1x1x128x19 .f32) (harg5 : arg5.IsWhole) (arg6 : Memref sig .tc .vmem S1x1x128x19 .f32) (harg6 : arg6.IsWhole) (arg7 : Memref sig .tc .vmem S19x16384 .f32) (harg7 : arg7.IsWhole) (hc : ¬cond0 i)
    (x0 : Vec F S1x19x16384 .f32) (x1 x2 : Vec F S1x128x16384 .f32) (d5 d6 : Vec F S1x1x128x19 .f32) (wv : Vec F S19x16384 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare d6 ∗ owns (c : Thread nD τ) arg7 fullShare wv
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 wv x1) ∗ owns (c : Thread nD τ) arg6 fullShare (k0_pay3 wv x2)
            ∗ owns (c : Thread nD τ) arg7 fullShare wv) -∗ K ⟨⟩))
      ⊢ wp frame (wpE (defs₀ (F := F)) Variants.none c none) E (cc0_css_softmax_pool i arg2 harg2 arg3 harg3 arg4 harg4 arg5 harg5 arg6 harg6 arg7 harg7) K := by
  simp only [cc0_css_softmax_pool_eq_skeleton]; unfold cc0_css_softmax_pool_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap; · iexact H5
    ipureintro
    refine (read_writes_whole _ _ hz4 _ _).trans ?_
    sl_unfold_words
    simp only [View.readAt_eq_ld, harg7.read_unread, harg3.read_unread, View.ld_unit_zero (S := S19x16384) hz2,
      View.ld_unit_zero (S := S1x128x16384) hz3]
  isplitl [H6]
  · iexists _; isplitr; swap; · iexact H6
    ipureintro
    refine (read_writes_whole _ _ hz4 _ _).trans ?_
    sl_unfold_words
    simp only [View.readAt_eq_ld, harg7.read_unread, harg4.read_unread, View.ld_unit_zero (S := S19x16384) hz2,
      View.ld_unit_zero (S := S1x128x16384) hz3]
  · iexists _; isplitr; · ipureintro; exact harg7.read_unread _
    iexact H7

end Cert.Kernel.Frm

end
-- ==== Proof.KB.Dat.lean ====
/-
  The word-level kernel's frame, second part: the pipeline's proof data and the body obligation.

  What the body leaves at point t: the three input blocks as fetched; in the first output block the product of the
  even feature block with the softmax weights of the point's scores block, in the second that of the odd feature
  block; and in the scratch those weights. The scores block is the same at the two points of a batch row, so the
  weights the second point finds in the scratch — the first point's — are the weights of its own scores block: no
  induction over the points is needed, the invariant after point t names the scratch at the weights of block t.
  The two feature windows read one array; each holds half of it.
-/
import proofs.«176334_g94489280978_feedfinal_143_10_alg».proof.Proof.KB.Body

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The invariant -/

/-- Before the first point: what the launch hands over (the scratch at anything). Before point n + 1: the scratch
    at the softmax weights of point n's scores block; the generator register at some state. -/
def PhiS (c : Dev nD) : (n : ℕ) → n ≤ cfg0.N → sProp 𝕄
  | 0, _ => Pipeline.ΦA spec0 c
  | n + 1, hn => iprop(iprop(owns (c : Thread nD τ) scM fullShare (k0_pay1 (iblk m c 0 ⟨n, hn⟩))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (k0_pay1 (iblk m c 0 ⟨n, hn⟩))) ∗ (∃ r, prngReg c r)) := rfl

theorem PhiS_pos (c : Dev nD) (n : ℕ) (h : n ≤ cfg0.N) (hz : n ≠ 0) :
    PhiS m c n h = iprop(iprop(owns (c : Thread nD τ) scM fullShare (k0_pay1 (iblk m c 0 ⟨n - 1, by omega⟩))) ∗ (∃ r, prngReg c r)) := by
  cases n with
  | zero => exact absurd rfl hz
  | succ n => rfl

/-! ## The proof data -/

/-- The proof data on core `c`: the arrays as the region finds them; after the body each input's buffer at its
    block, each output's at its product; the invariant above; nothing owed; the scores array and the outputs held
    whole, the feature array half by each of its two windows. -/
def dat (c : Dev nD) : Dat τ (Elt F) Unit ℕ (UR sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => k0_pay2 (k0_pay1 (iblk m c 0 t)) (iblk m c 1 t)
    | ⟨4, _⟩ => k0_pay3 (k0_pay1 (iblk m c 0 t)) (iblk m c 2 t)
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dat m c).A w = V1 m c (Pipeline.arrRef spec0 w) := by
  dsimp only [dat]

theorem PhiS_castSucc (c : Dev nD) (t : Fin cfg0.N) :
    (dat m c).Φ t.castSucc = PhiS m c t.val (Nat.le_of_lt t.isLt) := by
  dsimp only [dat]; simp only [Fin.coe_castSucc]

theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]
theorem after0_2 (c : Dev nD) (t : Fin cfg0.N) : (dat m c).after 2 t = iblk m c 2 t := by dsimp only [dat]
theorem after0_3 (c : Dev nD) (t : Fin cfg0.N) :
    (dat m c).after 3 t = k0_pay2 (k0_pay1 (iblk m c 0 t)) (iblk m c 1 t) := by dsimp only [dat]
theorem after0_4 (c : Dev nD) (t : Fin cfg0.N) :
    (dat m c).after 4 t = k0_pay3 (k0_pay1 (iblk m c 0 t)) (iblk m c 2 t) := by dsimp only [dat]

/-- Each input's current staging buffer holds its block at every point, fetched there or not. -/
theorem before0_0 (c : Dev nD) (t : Fin cfg0.N) (d) : (dat m c).before 0 t d = iblk m c 0 t :=
  ((dat m c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dat m c).before 1 t d = iblk m c 1 t :=
  ((dat m c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dat m c).before 2 t d = iblk m c 2 t :=
  ((dat m c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The scores block at the two points of a batch row -/

/-- What a fetch of the scores window stages at a point is its block there. -/
theorem fetched0_0 (c : Dev nD) (t : Fin cfg0.N) (d) : (dat m c).fetched 0 t d = iblk m c 0 t := by
  unfold Dat.fetched Dat.blockOf iblk; rw [A_eq]; try rfl

/-- The second point of a batch row sees the scores block of the first: the block's index does not move. -/
theorem iblk0_odd (c : Dev nD) (t : Fin cfg0.N) (ho : t.val % 2 = 1) :
    iblk m c 0 ⟨t.val - 1, Nat.lt_of_le_of_lt (Nat.sub_le _ _) t.isLt⟩ = iblk m c 0 t :=
  (fetched0_0 m c _ (iblk m c 0 t)).symm.trans
    (((dat m c).fetched_congr 0 (index0_odd t ho).symm rfl (iblk m c 0 t)).trans (fetched0_0 m c t (iblk m c 0 t)))

/-! ## The body obligation -/

def bodyPre (c : Dev nD) (t : Fin cfg0.N) : sProp 𝕄 :=
  iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ d, owns (c : Thread nD τ) (ms0_4 t) fullShare ((dat m c).before 4 t d)))

def bodyPost (c : Dev nD) (t : Fin cfg0.N) : sProp 𝕄 :=
  iprop((dat m c).Φ t.succ ∗ (dat m c).owesAt () t.succ
    ∗ (dat m c).leavesExact 0 t
    ∗ (dat m c).leavesExact 1 t
    ∗ (dat m c).leavesExact 2 t
    ∗ (dat m c).leavesExact 3 t
    ∗ (dat m c).leavesExact 4 t)

set_option maxHeartbeats 4800000 in
/-- The body at any point: at an even point the branch is taken and the scratch, whatever it held, is left at the
    weights of the point's scores block; at an odd point the scratch holds the weights the point before left, which
    are those of this point's scores block, and is left as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dat m c).owesAt () t.succ = (dat m c).owesAt () t.castSucc from rfl]
  rw [show (dat m c).Φ t.succ = PhiS m c (t.val + 1) t.isLt from rfl, PhiS_succ]
  rw [show (dat m c).leavesExact 0 t = owns (c : Thread nD τ) (ms0_0 t) fullShare ((dat m c).after 0 t) from by
    unfold Dat.leavesExact; rw [liveAt0_0 t], after0_0]
  rw [show (dat m c).leavesExact 1 t = owns (c : Thread nD τ) (ms0_1 t) fullShare ((dat m c).after 1 t) from by
    unfold Dat.leavesExact; rw [liveAt0_1 t], after0_1]
  rw [show (dat m c).leavesExact 2 t = owns (c : Thread nD τ) (ms0_2 t) fullShare ((dat m c).after 2 t) from by
    unfold Dat.leavesExact; rw [liveAt0_2 t], after0_2]
  rw [show (dat m c).leavesExact 3 t = owns (c : Thread nD τ) (ms0_3 t) fullShare ((dat m c).after 3 t) from by
    unfold Dat.leavesExact; rw [liveAt0_3 t], after0_3]
  rw [show (dat m c).leavesExact 4 t = owns (c : Thread nD τ) (ms0_4 t) fullShare ((dat m c).after 4 t) from by
    unfold Dat.leavesExact; rw [liveAt0_4 t], after0_4]
  by_cases h0 : t.val % 2 = 0
  · by_cases hz : t.val = 0
    · rw [PhiS_castSucc m c t, PhiS_zero m c _ _ hz, PhiA0_eq]
      iintro ⟨⟨⟨%d7, HS⟩, Hg⟩, Ho, ⟨%d0, H0⟩, ⟨%d1, H1⟩, ⟨%d2, H2⟩, ⟨%d3, H3⟩, ⟨%d4, H4⟩⟩
      iapply (kernelRun_first c (grid0.coords t) (ms0_0 t) (hs0_0 t) (ms0_1 t) (hs0_1 t) (ms0_2 t) (hs0_2 t) (ms0_3 t) (hs0_3 t) (ms0_4 t) (hs0_4 t)
        scM (Memref.isWhole_whole _) ((hcond0 t).mpr h0) (iblk m c 0 t) (iblk m c 1 t) (iblk m c 2 t) _ _ d7 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply (kernelRun_first c (grid0.coords t) (ms0_0 t) (hs0_0 t) (ms0_1 t) (hs0_1 t) (ms0_2 t) (hs0_2 t) (ms0_3 t) (hs0_3 t) (ms0_4 t) (hs0_4 t)
        scM (Memref.isWhole_whole _) ((hcond0 t).mpr h0) (iblk m c 0 t) (iblk m c 1 t) (iblk m c 2 t) _ _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
  · have ho : t.val % 2 = 1 := by omega
    have hz : t.val ≠ 0 := by omega
    rw [PhiS_castSucc m c t, PhiS_pos m c _ _ hz, iblk0_odd m c t ho]
    iintro ⟨⟨HS, Hg⟩, Ho, ⟨%d0, H0⟩, ⟨%d1, H1⟩, ⟨%d2, H2⟩, ⟨%d3, H3⟩, ⟨%d4, H4⟩⟩
    iapply (kernelRun_later c (grid0.coords t) (ms0_0 t) (hs0_0 t) (ms0_1 t) (hs0_1 t) (ms0_2 t) (hs0_2 t) (ms0_3 t) (hs0_3 t) (ms0_4 t) (hs0_4 t)
      scM (Memref.isWhole_whole _) (fun h => h0 ((hcond0 t).mp h)) (iblk m c 0 t) (iblk m c 1 t) (iblk m c 2 t) _ _ (k0_pay1 (iblk m c 0 t)) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dat (F := F) m c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dat m c).Φ 0 := by
  rw [show (dat m c).Φ 0 = PhiS m c 0 (Nat.zero_le _) from rfl, PhiS_zero m c 0 _ rfl]
  try exact Idealize.SL.BI.Entails.refl _

/-- After the last point the invariant gives it back: the scratch's named contents are forgotten. -/
theorem hout (c : Dev nD) : (dat m c).Φ (Fin.last cfg0.N) ⊢ Pipeline.ΦA spec0 c := by
  rw [show (dat m c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA0_eq]
  iintro ⟨HS, Hg⟩
  isplitl [HS]
  · iexists _; iexact HS
  iexact Hg

end Cert.Kernel.Frm

end
-- ==== Proof.KB.Vals.lean ====
/-
  The word-level kernel's frame, third part: the buffers' contents after the region and at the end.

  The region changes two buffers, its results: each ends at what the pipeline's write-backs leave in it. Every
  other buffer is as the region found it. The five layout operations after the region then run from those contents.
-/
import proofs.«176334_g94489280978_feedfinal_143_10_alg».proof.Proof.KB.Dat

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit: the two results at what the write-backs leave, every other buffer as entered. -/
def W2 (c : Dev nD) : Valuation τ sig (Elt F) :=
  Function.update (Function.update (W1 m c) (Proc.devRef .tc main_v2_0) ((dat m c).arrAt 3 cfg0.N))
    (Proc.devRef .tc main_v2_1) ((dat m c).arrAt 4 cfg0.N)

/-- At the end: the five layout operations have run. -/
abbrev W3 (c : Dev nD) : Valuation τ sig (Elt F) := StableHlo.after hostOps1 (W2 m c)

theorem W2_v2_1 (c : Dev nD) : W2 m c (Proc.devRef .tc main_v2_1) = (dat m c).arrAt 4 cfg0.N := by
  unfold W2; exact Function.update_self _ _ _

theorem W2_v2_0 (c : Dev nD) : W2 m c (Proc.devRef .tc main_v2_0) = (dat m c).arrAt 3 cfg0.N := by
  unfold W2
  rw [Function.update_of_ne (StableHlo.devRef_ne_of_ne (by decide) : (Proc.devRef .tc main_v2_0 : DevRef τ sig) ≠ Proc.devRef .tc main_v2_1)]
  exact Function.update_self _ _ _

theorem W2_of_ne (c : Dev nD) (b : Ref sig .tc) (h0 : b ≠ main_v2_0) (h1 : b ≠ main_v2_1) :
    W2 m c (Proc.devRef .tc b) = W1 m c (Proc.devRef .tc b) := by
  unfold W2
  rw [Function.update_of_ne (StableHlo.devRef_ne_of_ne h1), Function.update_of_ne (StableHlo.devRef_ne_of_ne h0)]

end Cert.Kernel.Frm

end
-- ==== Proof.KB.Launch.lean ====
/-
  The word-level kernel's frame, fourth part: the launch.

  @main as three segments — the two reshapes, the region, the five layout operations — over one thread state: every
  unscoped buffer whole at the boundary's contents, the generator register at some state, nothing owed. At the
  region's entry the features array, which two windows read, is dealt to them half and half; at its exit the halves
  are joined again, the two results are at what the write-backs left, and everything else is as entered.
-/
import proofs.«176334_g94489280978_feedfinal_143_10_alg».proof.Proof.KB.Vals
import Idealize.ShloMosaic.Lib.Pipeline.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers, listed -/

/-- The eleven buffers of @main's tensor values. -/
abbrev ucList : List (DevRef τ sig) :=
  [Proc.devRef .tc main_arg0, Proc.devRef .tc main_arg1, Proc.devRef .tc main_v0, Proc.devRef .tc main_v1,
   Proc.devRef .tc main_v2_0, Proc.devRef .tc main_v2_1, Proc.devRef .tc main_v3, Proc.devRef .tc main_v4,
   Proc.devRef .tc main_v5, Proc.devRef .tc main_v6, Proc.devRef .tc main_v7]

theorem ucRefs_eq : Pipeline.ucRefs τ sig = (ucList).toFinset := by decide
theorem ucList_nodup : (ucList).Nodup := by decide

/-- The thread state's buffers one by one. -/
theorem held_eq (c : Dev nD) (W : Valuation τ sig (Elt F)) :
    (StableHlo.held (c : Thread nD τ) (Pipeline.ucRefs τ sig) W : sProp 𝕄)
      = bigSepL ucList fun b => (((c : Thread nD τ).1, b) ↦{fullShare} W b : sProp 𝕄) := by
  unfold StableHlo.held; exact bigSep_eq_bigSepL_of_eq ucList ucRefs_eq ucList_nodup _

/-- The same, each buffer at its TensorCore reference. -/
theorem held_eq' (c : Dev nD) (W : Valuation τ sig (Elt F)) :
    (StableHlo.held (c : Thread nD τ) (Pipeline.ucRefs τ sig) W : sProp 𝕄)
      = iprop((((c : Thread nD τ).loc main_arg0) ↦{fullShare} W (Proc.devRef .tc main_arg0)) ∗ (((c : Thread nD τ).loc main_arg1) ↦{fullShare} W (Proc.devRef .tc main_arg1))
          ∗ (((c : Thread nD τ).loc main_v0) ↦{fullShare} W (Proc.devRef .tc main_v0)) ∗ (((c : Thread nD τ).loc main_v1) ↦{fullShare} W (Proc.devRef .tc main_v1))
          ∗ (((c : Thread nD τ).loc main_v2_0) ↦{fullShare} W (Proc.devRef .tc main_v2_0)) ∗ (((c : Thread nD τ).loc main_v2_1) ↦{fullShare} W (Proc.devRef .tc main_v2_1))
          ∗ (((c : Thread nD τ).loc main_v3) ↦{fullShare} W (Proc.devRef .tc main_v3)) ∗ (((c : Thread nD τ).loc main_v4) ↦{fullShare} W (Proc.devRef .tc main_v4))
          ∗ (((c : Thread nD τ).loc main_v5) ↦{fullShare} W (Proc.devRef .tc main_v5)) ∗ (((c : Thread nD τ).loc main_v6) ↦{fullShare} W (Proc.devRef .tc main_v6))
          ∗ (((c : Thread nD τ).loc main_v7) ↦{fullShare} W (Proc.devRef .tc main_v7))) :=
  (held_eq c W).trans rfl

/-! ## The pipeline's arrays, one by one -/

theorem share0 (c : Dev nD) : (dat m c).share 0 = fullShare := rfl
theorem share1 (c : Dev nD) : (dat m c).share 1 = fullShare.left := rfl
theorem share2 (c : Dev nD) : (dat m c).share 2 = fullShare.right := rfl
theorem share3 (c : Dev nD) : (dat m c).share 3 = fullShare := rfl
theorem share4 (c : Dev nD) : (dat m c).share 4 = fullShare := rfl

/-- The scores array whole, the features array in halves, the two results whole. -/
theorem arrays_eq5 (c : Dev nD) (G : (w : Fin cfg0.W) → Buf (Elt F) ((cfg0.win w).arr.view.loc (c : Thread nD τ))) :
    ((dat m c).arrays G : sProp 𝕄)
      = iprop((((c : Thread nD τ).loc main_v1) ↦{fullShare} G 0) ∗ (((c : Thread nD τ).loc main_v0) ↦{fullShare.left} G 1)
          ∗ (((c : Thread nD τ).loc main_v0) ↦{fullShare.right} G 2) ∗ (((c : Thread nD τ).loc main_v2_0) ↦{fullShare} G 3)
          ∗ (((c : Thread nD τ).loc main_v2_1) ↦{fullShare} G 4)) := by
  unfold Dat.arrays
  rw [bigSep_W0]
  simp only [(arr_whole0 0).set_eq_univ, (arr_whole0 1).set_eq_univ, (arr_whole0 3).set_eq_univ, (arr_whole0 4).set_eq_univ,
    share0, share1, share2, share3, share4]

/-- The two halves of a share make it. -/
theorem halves_mem : fullShare ∈ (PCS.op fullShare.left fullShare.right : Part (PosShare TreeShare)) := by
  rw [PosShare.left_op_right]; exact Part.mem_some _

/-! ## The segments -/

abbrev adm : (p : Fin 1) → (pcfgs (F := F) p).Adm := fun p => (cfgs p).toPCfg_adm
/-- The one pipeline's proof data. -/
def pdats : (p : Fin 1) → (c : Dev nD) → Dat τ (Elt F) Unit ℕ (UR sig nD τ) ℕ (Pipeline.pin (pcfgs (F := F)) adm p) c
  | ⟨0, _⟩ => fun c => dat m c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host operations as a segment over the thread state. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- What bypasses the region: the two arguments and the five buffers the layout operations will write. -/
abbrev Zc (c : Dev nD) : sProp 𝕄 :=
  iprop((((c : Thread nD τ).loc main_arg0) ↦{fullShare} W1 m c (Proc.devRef .tc main_arg0)) ∗ (((c : Thread nD τ).loc main_arg1) ↦{fullShare} W1 m c (Proc.devRef .tc main_arg1))
    ∗ (((c : Thread nD τ).loc main_v3) ↦{fullShare} W1 m c (Proc.devRef .tc main_v3)) ∗ (((c : Thread nD τ).loc main_v4) ↦{fullShare} W1 m c (Proc.devRef .tc main_v4))
    ∗ (((c : Thread nD τ).loc main_v5) ↦{fullShare} W1 m c (Proc.devRef .tc main_v5)) ∗ (((c : Thread nD τ).loc main_v6) ↦{fullShare} W1 m c (Proc.devRef .tc main_v6))
    ∗ (((c : Thread nD τ).loc main_v7) ↦{fullShare} W1 m c (Proc.devRef .tc main_v7)))

set_option backward.isDefEq.respectTransparency.types false in
/-- THE REGION over the thread state: entered from every unscoped buffer at the contents after the reshapes, left
    with the two results at what the write-backs leave. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Zc m c
  hentry c := by
    rw [Pipeline.ownSems0_none, held_eq']
    rw [show (pdats m 0 c).arrays ((pdats m 0 c).arrAt · 0) = (dat m c).arrays ((dat m c).arrAt · 0) from rfl, arrays_eq5]
    iintro ⟨⟨⟨Ha0, Ha1, Hv0, Hv1, H20, H21, H3, H4, H5, H6, H7⟩, Hp, HO⟩, -, -⟩
    ihave Hs := (pointsTo_share (f := W1 m c (Proc.devRef .tc main_v0)) (I := Finset.univ) (ℓ := (c : Thread nD τ).loc main_v0) halves_mem).1 $$ Hv0
    icases Hs with ⟨HvL, HvR⟩
    imodintro
    isplitl [Hv1 HvL HvR H20 H21]
    · isplitl [Hv1]; · iexact Hv1
      isplitl [HvL]; · iexact HvL
      isplitl [HvR]; · iexact HvR
      isplitl [H20]; · iexact H20
      iexact H21
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha0]; · iexact Ha0
    isplitl [Ha1]; · iexact Ha1
    isplitl [H3]; · iexact H3
    isplitl [H4]; · iexact H4
    isplitl [H5]; · iexact H5
    isplitl [H6]; · iexact H6
    iexact H7
  hin c := by
    rw [show (pdats m 0 c).Φ 0 = (dat m c).Φ 0 from rfl]
    refine BIBase.Entails.trans ?_ (hin m c)
    unfold Pipeline.ΦA
    iintro ⟨Hp, -, Hr⟩
    isplitl [Hr]; · iexact Hr
    iexact Hp
  hout c := by
    rw [Pipeline.ownSems0_none, show (pdats m 0 c).Φ (Fin.last _) = (dat m c).Φ (Fin.last cfg0.N) from rfl]
    refine BIBase.Entails.trans (hout m c) ?_
    unfold Pipeline.ΦA
    iintro ⟨Hr, Hp⟩
    isplitl [Hp]; · iexact Hp
    isplitr; · iempintro
    iexact Hr
  hexit c := by
    rw [held_eq']
    rw [show (pdats m 0 c).arrays ((pdats m 0 c).arrAt · (Pipeline.pin (pcfgs (F := F)) adm 0).N) = (dat m c).arrays ((dat m c).arrAt · cfg0.N) from rfl, arrays_eq5]
    rw [W2_of_ne m c main_arg0 (by decide) (by decide), W2_of_ne m c main_arg1 (by decide) (by decide),
      W2_of_ne m c main_v0 (by decide) (by decide), W2_of_ne m c main_v1 (by decide) (by decide),
      W2_v2_0, W2_v2_1,
      W2_of_ne m c main_v3 (by decide) (by decide), W2_of_ne m c main_v4 (by decide) (by decide),
      W2_of_ne m c main_v5 (by decide) (by decide), W2_of_ne m c main_v6 (by decide) (by decide),
      W2_of_ne m c main_v7 (by decide) (by decide)]
    rw [(dat m c).arrAt_in 0 rfl cfg0.N, (dat m c).arrAt_in 1 rfl cfg0.N, (dat m c).arrAt_in 2 rfl cfg0.N]
    iintro ⟨⟨Hv1, HvL, HvR, H20, H21⟩, HO, HY, ⟨Ha0, Ha1, H3, H4, H5, H6, H7⟩⟩
    ihave Hv0 := (pointsTo_share (f := W1 m c (Proc.devRef .tc main_v0)) (I := Finset.univ) (ℓ := (c : Thread nD τ).loc main_v0) halves_mem).2 $$ [HvL HvR]
    · isplitl [HvL]; · iexact HvL
      iexact HvR
    imodintro
    isplitr [HY HO]
    · isplitl [Ha0]; · iexact Ha0
      isplitl [Ha1]; · iexact Ha1
      isplitl [Hv0]; · iexact Hv0
      isplitl [Hv1]; · iexact Hv1
      isplitl [H20]; · iexact H20
      isplitl [H21]; · iexact H21
      isplitl [H3]; · iexact H3
      isplitl [H4]; · iexact H4
      isplitl [H5]; · iexact H5
      isplitl [H6]; · iexact H6
      iexact H7
    isplitl [HY]; · iexact HY
    unfold Pipeline.Dat.owesAt Pipeline.owesWithin
    icases HO with ⟨%W, -, HO⟩; iexists W; iexact HO

/-- @main's three segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]

/-- @main is the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

set_option backward.isDefEq.respectTransparency.types false in
/-- THE RUN: from any memory with zero counters every weakly fair execution of @main terminates, nothing faulting,
    and every final state holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show (iprop(StableHlo.held (c : Thread nD τ) (Pipeline.ucRefs τ sig) (W3 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched -/

/-- The reshapes write their own results only; -/
theorem not_written0 (b : Ref sig .tc) (h0 : b ≠ main_v0) (h1 : b ≠ main_v1) :
    ∀ op ∈ (hostOps0 (F := F)), Proc.devRef .tc b ∉ op.writes := by
  intro op hop
  simp only [List.mem_cons, List.mem_nil_iff, or_false] at hop
  rcases hop with rfl | rfl <;>
    simp only [StableHlo.reshape_writes, Finset.mem_singleton] <;>
    exact StableHlo.devRef_ne_of_ne ‹_›

/-- and so do the five layout operations. -/
theorem not_written1 (b : Ref sig .tc) (h3 : b ≠ main_v3) (h4 : b ≠ main_v4) (h5 : b ≠ main_v5) (h6 : b ≠ main_v6) (h7 : b ≠ main_v7) :
    ∀ op ∈ (hostOps1 (F := F)), Proc.devRef .tc b ∉ op.writes := by
  intro op hop
  simp only [List.mem_cons, List.mem_nil_iff, or_false] at hop
  rcases hop with rfl | rfl | rfl | rfl | rfl <;>
    simp only [StableHlo.unary_writes, StableHlo.binary_writes, StableHlo.reshape_writes, Finset.mem_singleton] <;>
    exact StableHlo.devRef_ne_of_ne ‹_›

/-- A buffer no operation writes and the region does not change holds at the end what it held at launch. -/
theorem W3_of_untouched (c : Dev nD) (b : Ref sig .tc) (h0 : b ≠ main_v0) (h1 : b ≠ main_v1) (h20 : b ≠ main_v2_0) (h21 : b ≠ main_v2_1)
    (h3 : b ≠ main_v3) (h4 : b ≠ main_v4) (h5 : b ≠ main_v5) (h6 : b ≠ main_v6) (h7 : b ≠ main_v7) :
    W3 m c (Proc.devRef .tc b) = m ((c : Thread nD τ).loc b) :=
  (StableHlo.after_of_forall_not_mem (b := Proc.devRef .tc b) hostOps1 (W2 m c) (not_written1 b h3 h4 h5 h6 h7)).trans
    ((W2_of_ne m c b h20 h21).trans
      ((StableHlo.after_of_forall_not_mem (b := Proc.devRef .tc b) hostOps0 (W0 m c) (not_written0 b h0 h1)).trans rfl))

/-- THE FRAME: every weakly fair execution of @main terminates, nothing faulting, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans
        (W3_of_untouched m c main_arg0 (by decide) (by decide) (by decide) (by decide) (by decide) (by decide) (by decide) (by decide) (by decide)),
      (h c _ (mem_uc main_arg1 (by decide))).trans
        (W3_of_untouched m c main_arg1 (by decide) (by decide) (by decide) (by decide) (by decide) (by decide) (by decide) (by decide) (by decide))⟩)
    (run_main m ρ)

end Cert.Kernel.Frm

end
-- ==== Proof.KI.Kit.lean ====
/-
  The idealized kernel's frame, first part: what everything later is stated over.

  @main is two reshapes (the features to [8, 512, 16384], the scores to [8, 19, 16384]), one kernel region on a
  grid of 8 × 2 points, and five layout operations on the region's two results. This module names the contents of
  the TensorCore's buffers when the region is entered (the launch contents after the two reshapes), each window's
  block at a grid point read off those contents, the staging memrefs the body is called with, the scratch memref,
  and the body's one branch condition in closed form: it holds exactly at the even points, the first of the two
  points of each batch row. Generic in the float instance.
-/
import proofs.«176334_g94489280978_feedfinal_143_10_alg».proof.Proof.Gen.KernelIdeal.Launch
import proofs.«176334_g94489280978_feedfinal_143_10_alg».proof.Proof.Gen.KernelIdeal.Skeleton
import proofs.«176334_g94489280978_feedfinal_143_10_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the region's entry -/

/-- Core `c`'s buffers at launch, as a valuation. -/
abbrev W0 (c : Dev nD) : Valuation τ sig (Elt F) := fun b => m (c, b)
/-- After the two reshapes: what the region is entered from. -/
abbrev W1 (c : Dev nD) : Valuation τ sig (Elt F) := StableHlo.after hostOps0 (W0 m c)
/-- The same read at a TensorCore reference. -/
abbrev V1 (c : Dev nD) (b : Ref sig .tc) : Buf (Elt F) ((c : Thread nD τ).loc b) := W1 m c b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-! ## The memrefs the body is called with -/

abbrev ms0_0 (t : Fin cfg0.N) : Memref sig .tc .vmem S1x19x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x16384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x16384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128x19 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128x19 .f32 := win0_4.stage (cfg0.slots t 4)
abbrev hs0_4 (t : Fin cfg0.N) : (ms0_4 t).IsWhole := hstage0_4 ((cfg0.slots t 4).cast nbuf0_4)
/-- The scratch: a whole scoped buffer of the kernel's own, the softmax weights of the current batch row. -/
abbrev scM : Memref sig .tc .vmem S19x16384 .f32 := Memref.whole cc0_scratch0

/-! ## The body's branch -/

/-- The body's one condition, from the grid coordinates: the second coordinate is zero. -/
abbrev cond0 (i : grid0.Coords) : Prop :=
  (Scalar.cmpi .ne (Scalar.extui (Scalar.cmpi .eq (BitVec.ofNat 32 (i 1).val) 0#32)) 0#32) = 1#1
/-- It holds exactly at the even points. -/
theorem hcond0 : ∀ t : Fin cfg0.N, cond0 (grid0.coords t) ↔ t.val % 2 = 0 :=
  (by decide +kernel : ∀ t : Fin grid0.N, cond0 (grid0.coords t) ↔ t.val % 2 = 0)

/-! ## No window is ever idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-- The scores window sees the same block at the two points of a batch row. -/
theorem index0_odd : ∀ t : Fin cfg0.N, (ho : t.val % 2 = 1) →
    (cfg0.win 0).index t = (cfg0.win 0).index ⟨t.val - 1, Nat.lt_of_le_of_lt (Nat.sub_le _ _) t.isLt⟩ :=
  (by decide +kernel : ∀ t : Fin grid0.N, (ho : t.val % 2 = 1) →
    win0_0.index t = win0_0.index ⟨t.val - 1, Nat.lt_of_le_of_lt (Nat.sub_le _ _) t.isLt⟩)

/-! ## The class invariant, the scratch named -/

/-- What the launch hands the region beside the windows: the scratch at some contents, the generator register at
    some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Frm

end
-- ==== Proof.KI.Body.lean ====
/-
  The idealized kernel's body as two triples, one per case of its branch.

  At the first point of a batch row (the branch taken) the body computes the row's softmax weights from the scores
  block — the exponential of each score less its row's maximum, times the reciprocal of the row's sum of those —,
  stores them into the scratch whatever it held, and then stores each of the two products (a feature block against
  the weights, contracted over the spatial axis) into its output block. At the second point (the branch not taken)
  it reads the scratch as the first point left it and stores the same two products. Either way the three input
  blocks are as they were and each output block holds its payload whatever it held before. Both triples are stated
  over the generated payload names, on any whole memrefs, for any float instance.
-/
import proofs.«176334_g94489280978_feedfinal_143_10_alg».proof.Proof.KI.Kit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One store through the whole of a view, read back, is its payload, whatever the view held. -/
theorem read_writes_whole {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, by
    subst h; show y ∈ (Rect.whole S).set; rw [Rect.set_whole]; exact Finset.mem_univ y⟩), View.canon_unit_zero h]

theorem hz2 : (![0, 0] : Fin 2 → Nat) = fun _ => 0 := by funext a; fin_cases a <;> rfl
theorem hz3 : (![0, 0, 0] : Fin 3 → Nat) = fun _ => 0 := by funext a; fin_cases a <;> rfl
theorem hz4 : (![0, 0, 0, 0] : Fin 4 → Nat) = fun _ => 0 := by funext a; fin_cases a <;> rfl

set_option maxHeartbeats 1000000 in
/-- The branch taken: the scratch is overwritten with the weights of the scores block, and both outputs are
    products against those weights. -/
theorem kernelRun_first (c : Dev nD) (i : grid0.Coords) (arg2 : Memref sig .tc .vmem S1x19x16384 .f32) (harg2 : arg2.IsWhole) (arg3 : Memref sig .tc .vmem S1x128x16384 .f32) (harg3 : arg3.IsWhole) (arg4 : Memref sig .tc .vmem S1x128x16384 .f32) (harg4 : arg4.IsWhole) (arg5 : Memref sig .tc .vmem S1x1x128x19 .f32) (harg5 : arg5.IsWhole) (arg6 : Memref sig .tc .vmem S1x1x128x19 .f32) (harg6 : arg6.IsWhole) (arg7 : Memref sig .tc .vmem S19x16384 .f32) (harg7 : arg7.IsWhole) (hc : cond0 i)
    (x0 : Vec F S1x19x16384 .f32) (x1 x2 : Vec F S1x128x16384 .f32) (d5 d6 : Vec F S1x1x128x19 .f32) (d7 : Vec F S19x16384 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare d6 ∗ owns (c : Thread nD τ) arg7 fullShare d7
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 (k0_pay1 x0) x1) ∗ owns (c : Thread nD τ) arg6 fullShare (k0_pay3 (k0_pay1 x0) x2)
            ∗ owns (c : Thread nD τ) arg7 fullShare (k0_pay1 x0)) -∗ K ⟨⟩))
      ⊢ wp frame (wpE (defs₀ (F := F)) Variants.none c none) E (cc0_css_softmax_pool i arg2 harg2 arg3 harg3 arg4 harg4 arg5 harg5 arg6 harg6 arg7 harg7) K := by
  simp only [cc0_css_softmax_pool_eq_skeleton]; unfold cc0_css_softmax_pool_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap; · iexact H5
    ipureintro
    refine (read_writes_whole _ _ hz4 _ _).trans ?_
    sl_unfold_words
    simp only [View.readAt_eq_ld, harg2.read_unread, harg3.read_unread, View.ld_unit_zero (S := S1x19x16384) hz3,
      View.ld_unit_zero (S := S1x128x16384) hz3, View.readCov_unit_zero (S := S19x16384) _ hz2]
  isplitl [H6]
  · iexists _; isplitr; swap; · iexact H6
    ipureintro
    refine (read_writes_whole _ _ hz4 _ _).trans ?_
    sl_unfold_words
    simp only [View.readAt_eq_ld, harg2.read_unread, harg4.read_unread, View.ld_unit_zero (S := S1x19x16384) hz3,
      View.ld_unit_zero (S := S1x128x16384) hz3, View.readCov_unit_zero (S := S19x16384) _ hz2]
  · iexists _; isplitr; swap; · iexact H7
    ipureintro
    sl_unfold_words
    refine (read_writes_whole _ _ hz2 _ _).trans ?_
    simp only [View.readAt_eq_ld, harg2.read_unread, View.ld_unit_zero (S := S1x19x16384) hz3]

set_option maxHeartbeats 1000000 in
/-- The branch not taken: the scratch is read as it was found, and both outputs are products against it. -/
theorem kernelRun_later (c : Dev nD) (i : grid0.Coords) (arg2 : Memref sig .tc .vmem S1x19x16384 .f32) (harg2 : arg2.IsWhole) (arg3 : Memref sig .tc .vmem S1x128x16384 .f32) (harg3 : arg3.IsWhole) (arg4 : Memref sig .tc .vmem S1x128x16384 .f32) (harg4 : arg4.IsWhole) (arg5 : Memref sig .tc .vmem S1x1x128x19 .f32) (harg5 : arg5.IsWhole) (arg6 : Memref sig .tc .vmem S1x1x128x19 .f32) (harg6 : arg6.IsWhole) (arg7 : Memref sig .tc .vmem S19x16384 .f32) (harg7 : arg7.IsWhole) (hc : ¬cond0 i)
    (x0 : Vec F S1x19x16384 .f32) (x1 x2 : Vec F S1x128x16384 .f32) (d5 d6 : Vec F S1x1x128x19 .f32) (wv : Vec F S19x16384 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare d6 ∗ owns (c : Thread nD τ) arg7 fullShare wv
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 wv x1) ∗ owns (c : Thread nD τ) arg6 fullShare (k0_pay3 wv x2)
            ∗ owns (c : Thread nD τ) arg7 fullShare wv) -∗ K ⟨⟩))
      ⊢ wp frame (wpE (defs₀ (F := F)) Variants.none c none) E (cc0_css_softmax_pool i arg2 harg2 arg3 harg3 arg4 harg4 arg5 harg5 arg6 harg6 arg7 harg7) K := by
  simp only [cc0_css_softmax_pool_eq_skeleton]; unfold cc0_css_softmax_pool_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap; · iexact H5
    ipureintro
    refine (read_writes_whole _ _ hz4 _ _).trans ?_
    sl_unfold_words
    simp only [View.readAt_eq_ld, harg7.read_unread, harg3.read_unread, View.ld_unit_zero (S := S19x16384) hz2,
      View.ld_unit_zero (S := S1x128x16384) hz3]
  isplitl [H6]
  · iexists _; isplitr; swap; · iexact H6
    ipureintro
    refine (read_writes_whole _ _ hz4 _ _).trans ?_
    sl_unfold_words
    simp only [View.readAt_eq_ld, harg7.read_unread, harg4.read_unread, View.ld_unit_zero (S := S19x16384) hz2,
      View.ld_unit_zero (S := S1x128x16384) hz3]
  · iexists _; isplitr; · ipureintro; exact harg7.read_unread _
    iexact H7

end Cert.KernelIdeal.Frm

end
-- ==== Proof.KI.Dat.lean ====
/-
  The idealized kernel's frame, second part: the pipeline's proof data and the body obligation.

  What the body leaves at point t: the three input blocks as fetched; in the first output block the product of the
  even feature block with the softmax weights of the point's scores block, in the second that of the odd feature
  block; and in the scratch those weights. The scores block is the same at the two points of a batch row, so the
  weights the second point finds in the scratch — the first point's — are the weights of its own scores block: no
  induction over the points is needed, the invariant after point t names the scratch at the weights of block t.
  The two feature windows read one array; each holds half of it.
-/
import proofs.«176334_g94489280978_feedfinal_143_10_alg».proof.Proof.KI.Body

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The invariant -/

/-- Before the first point: what the launch hands over (the scratch at anything). Before point n + 1: the scratch
    at the softmax weights of point n's scores block; the generator register at some state. -/
def PhiS (c : Dev nD) : (n : ℕ) → n ≤ cfg0.N → sProp 𝕄
  | 0, _ => Pipeline.ΦA spec0 c
  | n + 1, hn => iprop(iprop(owns (c : Thread nD τ) scM fullShare (k0_pay1 (iblk m c 0 ⟨n, hn⟩))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (k0_pay1 (iblk m c 0 ⟨n, hn⟩))) ∗ (∃ r, prngReg c r)) := rfl

theorem PhiS_pos (c : Dev nD) (n : ℕ) (h : n ≤ cfg0.N) (hz : n ≠ 0) :
    PhiS m c n h = iprop(iprop(owns (c : Thread nD τ) scM fullShare (k0_pay1 (iblk m c 0 ⟨n - 1, by omega⟩))) ∗ (∃ r, prngReg c r)) := by
  cases n with
  | zero => exact absurd rfl hz
  | succ n => rfl

/-! ## The proof data -/

/-- The proof data on core `c`: the arrays as the region finds them; after the body each input's buffer at its
    block, each output's at its product; the invariant above; nothing owed; the scores array and the outputs held
    whole, the feature array half by each of its two windows. -/
def dat (c : Dev nD) : Dat τ (Elt F) Unit ℕ (UR sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => k0_pay2 (k0_pay1 (iblk m c 0 t)) (iblk m c 1 t)
    | ⟨4, _⟩ => k0_pay3 (k0_pay1 (iblk m c 0 t)) (iblk m c 2 t)
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dat m c).A w = V1 m c (Pipeline.arrRef spec0 w) := by
  dsimp only [dat]

theorem PhiS_castSucc (c : Dev nD) (t : Fin cfg0.N) :
    (dat m c).Φ t.castSucc = PhiS m c t.val (Nat.le_of_lt t.isLt) := by
  dsimp only [dat]; simp only [Fin.coe_castSucc]

theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]
theorem after0_2 (c : Dev nD) (t : Fin cfg0.N) : (dat m c).after 2 t = iblk m c 2 t := by dsimp only [dat]
theorem after0_3 (c : Dev nD) (t : Fin cfg0.N) :
    (dat m c).after 3 t = k0_pay2 (k0_pay1 (iblk m c 0 t)) (iblk m c 1 t) := by dsimp only [dat]
theorem after0_4 (c : Dev nD) (t : Fin cfg0.N) :
    (dat m c).after 4 t = k0_pay3 (k0_pay1 (iblk m c 0 t)) (iblk m c 2 t) := by dsimp only [dat]

/-- Each input's current staging buffer holds its block at every point, fetched there or not. -/
theorem before0_0 (c : Dev nD) (t : Fin cfg0.N) (d) : (dat m c).before 0 t d = iblk m c 0 t :=
  ((dat m c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dat m c).before 1 t d = iblk m c 1 t :=
  ((dat m c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dat m c).before 2 t d = iblk m c 2 t :=
  ((dat m c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The scores block at the two points of a batch row -/

/-- What a fetch of the scores window stages at a point is its block there. -/
theorem fetched0_0 (c : Dev nD) (t : Fin cfg0.N) (d) : (dat m c).fetched 0 t d = iblk m c 0 t := by
  unfold Dat.fetched Dat.blockOf iblk; rw [A_eq]; try rfl

/-- The second point of a batch row sees the scores block of the first: the block's index does not move. -/
theorem iblk0_odd (c : Dev nD) (t : Fin cfg0.N) (ho : t.val % 2 = 1) :
    iblk m c 0 ⟨t.val - 1, Nat.lt_of_le_of_lt (Nat.sub_le _ _) t.isLt⟩ = iblk m c 0 t :=
  (fetched0_0 m c _ (iblk m c 0 t)).symm.trans
    (((dat m c).fetched_congr 0 (index0_odd t ho).symm rfl (iblk m c 0 t)).trans (fetched0_0 m c t (iblk m c 0 t)))

/-! ## The body obligation -/

def bodyPre (c : Dev nD) (t : Fin cfg0.N) : sProp 𝕄 :=
  iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ d, owns (c : Thread nD τ) (ms0_4 t) fullShare ((dat m c).before 4 t d)))

def bodyPost (c : Dev nD) (t : Fin cfg0.N) : sProp 𝕄 :=
  iprop((dat m c).Φ t.succ ∗ (dat m c).owesAt () t.succ
    ∗ (dat m c).leavesExact 0 t
    ∗ (dat m c).leavesExact 1 t
    ∗ (dat m c).leavesExact 2 t
    ∗ (dat m c).leavesExact 3 t
    ∗ (dat m c).leavesExact 4 t)

set_option maxHeartbeats 4800000 in
/-- The body at any point: at an even point the branch is taken and the scratch, whatever it held, is left at the
    weights of the point's scores block; at an odd point the scratch holds the weights the point before left, which
    are those of this point's scores block, and is left as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dat m c).owesAt () t.succ = (dat m c).owesAt () t.castSucc from rfl]
  rw [show (dat m c).Φ t.succ = PhiS m c (t.val + 1) t.isLt from rfl, PhiS_succ]
  rw [show (dat m c).leavesExact 0 t = owns (c : Thread nD τ) (ms0_0 t) fullShare ((dat m c).after 0 t) from by
    unfold Dat.leavesExact; rw [liveAt0_0 t], after0_0]
  rw [show (dat m c).leavesExact 1 t = owns (c : Thread nD τ) (ms0_1 t) fullShare ((dat m c).after 1 t) from by
    unfold Dat.leavesExact; rw [liveAt0_1 t], after0_1]
  rw [show (dat m c).leavesExact 2 t = owns (c : Thread nD τ) (ms0_2 t) fullShare ((dat m c).after 2 t) from by
    unfold Dat.leavesExact; rw [liveAt0_2 t], after0_2]
  rw [show (dat m c).leavesExact 3 t = owns (c : Thread nD τ) (ms0_3 t) fullShare ((dat m c).after 3 t) from by
    unfold Dat.leavesExact; rw [liveAt0_3 t], after0_3]
  rw [show (dat m c).leavesExact 4 t = owns (c : Thread nD τ) (ms0_4 t) fullShare ((dat m c).after 4 t) from by
    unfold Dat.leavesExact; rw [liveAt0_4 t], after0_4]
  by_cases h0 : t.val % 2 = 0
  · by_cases hz : t.val = 0
    · rw [PhiS_castSucc m c t, PhiS_zero m c _ _ hz, PhiA0_eq]
      iintro ⟨⟨⟨%d7, HS⟩, Hg⟩, Ho, ⟨%d0, H0⟩, ⟨%d1, H1⟩, ⟨%d2, H2⟩, ⟨%d3, H3⟩, ⟨%d4, H4⟩⟩
      iapply (kernelRun_first c (grid0.coords t) (ms0_0 t) (hs0_0 t) (ms0_1 t) (hs0_1 t) (ms0_2 t) (hs0_2 t) (ms0_3 t) (hs0_3 t) (ms0_4 t) (hs0_4 t)
        scM (Memref.isWhole_whole _) ((hcond0 t).mpr h0) (iblk m c 0 t) (iblk m c 1 t) (iblk m c 2 t) _ _ d7 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply (kernelRun_first c (grid0.coords t) (ms0_0 t) (hs0_0 t) (ms0_1 t) (hs0_1 t) (ms0_2 t) (hs0_2 t) (ms0_3 t) (hs0_3 t) (ms0_4 t) (hs0_4 t)
        scM (Memref.isWhole_whole _) ((hcond0 t).mpr h0) (iblk m c 0 t) (iblk m c 1 t) (iblk m c 2 t) _ _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
  · have ho : t.val % 2 = 1 := by omega
    have hz : t.val ≠ 0 := by omega
    rw [PhiS_castSucc m c t, PhiS_pos m c _ _ hz, iblk0_odd m c t ho]
    iintro ⟨⟨HS, Hg⟩, Ho, ⟨%d0, H0⟩, ⟨%d1, H1⟩, ⟨%d2, H2⟩, ⟨%d3, H3⟩, ⟨%d4, H4⟩⟩
    iapply (kernelRun_later c (grid0.coords t) (ms0_0 t) (hs0_0 t) (ms0_1 t) (hs0_1 t) (ms0_2 t) (hs0_2 t) (ms0_3 t) (hs0_3 t) (ms0_4 t) (hs0_4 t)
      scM (Memref.isWhole_whole _) (fun h => h0 ((hcond0 t).mp h)) (iblk m c 0 t) (iblk m c 1 t) (iblk m c 2 t) _ _ (k0_pay1 (iblk m c 0 t)) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dat (F := F) m c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dat m c).Φ 0 := by
  rw [show (dat m c).Φ 0 = PhiS m c 0 (Nat.zero_le _) from rfl, PhiS_zero m c 0 _ rfl]
  try exact Idealize.SL.BI.Entails.refl _

/-- After the last point the invariant gives it back: the scratch's named contents are forgotten. -/
theorem hout (c : Dev nD) : (dat m c).Φ (Fin.last cfg0.N) ⊢ Pipeline.ΦA spec0 c := by
  rw [show (dat m c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA0_eq]
  iintro ⟨HS, Hg⟩
  isplitl [HS]
  · iexists _; iexact HS
  iexact Hg

end Cert.KernelIdeal.Frm

end
-- ==== Proof.KI.Vals.lean ====
/-
  The idealized kernel's frame, third part: the buffers' contents after the region and at the end.

  The region changes two buffers, its results: each ends at what the pipeline's write-backs leave in it. Every
  other buffer is as the region found it. The five layout operations after the region then run from those contents.
-/
import proofs.«176334_g94489280978_feedfinal_143_10_alg».proof.Proof.KI.Dat

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit: the two results at what the write-backs leave, every other buffer as entered. -/
def W2 (c : Dev nD) : Valuation τ sig (Elt F) :=
  Function.update (Function.update (W1 m c) (Proc.devRef .tc main_v2_0) ((dat m c).arrAt 3 cfg0.N))
    (Proc.devRef .tc main_v2_1) ((dat m c).arrAt 4 cfg0.N)

/-- At the end: the five layout operations have run. -/
abbrev W3 (c : Dev nD) : Valuation τ sig (Elt F) := StableHlo.after hostOps1 (W2 m c)

theorem W2_v2_1 (c : Dev nD) : W2 m c (Proc.devRef .tc main_v2_1) = (dat m c).arrAt 4 cfg0.N := by
  unfold W2; exact Function.update_self _ _ _

theorem W2_v2_0 (c : Dev nD) : W2 m c (Proc.devRef .tc main_v2_0) = (dat m c).arrAt 3 cfg0.N := by
  unfold W2
  rw [Function.update_of_ne (StableHlo.devRef_ne_of_ne (by decide) : (Proc.devRef .tc main_v2_0 : DevRef τ sig) ≠ Proc.devRef .tc main_v2_1)]
  exact Function.update_self _ _ _

theorem W2_of_ne (c : Dev nD) (b : Ref sig .tc) (h0 : b ≠ main_v2_0) (h1 : b ≠ main_v2_1) :
    W2 m c (Proc.devRef .tc b) = W1 m c (Proc.devRef .tc b) := by
  unfold W2
  rw [Function.update_of_ne (StableHlo.devRef_ne_of_ne h1), Function.update_of_ne (StableHlo.devRef_ne_of_ne h0)]

end Cert.KernelIdeal.Frm

end
-- ==== Proof.KI.Launch.lean ====
/-
  The idealized kernel's frame, fourth part: the launch.

  @main as three segments — the two reshapes, the region, the five layout operations — over one thread state: every
  unscoped buffer whole at the boundary's contents, the generator register at some state, nothing owed. At the
  region's entry the features array, which two windows read, is dealt to them half and half; at its exit the halves
  are joined again, the two results are at what the write-backs left, and everything else is as entered.
-/
import proofs.«176334_g94489280978_feedfinal_143_10_alg».proof.Proof.KI.Vals
import Idealize.ShloMosaic.Lib.Pipeline.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers, listed -/

/-- The eleven buffers of @main's tensor values. -/
abbrev ucList : List (DevRef τ sig) :=
  [Proc.devRef .tc main_arg0, Proc.devRef .tc main_arg1, Proc.devRef .tc main_v0, Proc.devRef .tc main_v1,
   Proc.devRef .tc main_v2_0, Proc.devRef .tc main_v2_1, Proc.devRef .tc main_v3, Proc.devRef .tc main_v4,
   Proc.devRef .tc main_v5, Proc.devRef .tc main_v6, Proc.devRef .tc main_v7]

theorem ucRefs_eq : Pipeline.ucRefs τ sig = (ucList).toFinset := by decide
theorem ucList_nodup : (ucList).Nodup := by decide

/-- The thread state's buffers one by one. -/
theorem held_eq (c : Dev nD) (W : Valuation τ sig (Elt F)) :
    (StableHlo.held (c : Thread nD τ) (Pipeline.ucRefs τ sig) W : sProp 𝕄)
      = bigSepL ucList fun b => (((c : Thread nD τ).1, b) ↦{fullShare} W b : sProp 𝕄) := by
  unfold StableHlo.held; exact bigSep_eq_bigSepL_of_eq ucList ucRefs_eq ucList_nodup _

/-- The same, each buffer at its TensorCore reference. -/
theorem held_eq' (c : Dev nD) (W : Valuation τ sig (Elt F)) :
    (StableHlo.held (c : Thread nD τ) (Pipeline.ucRefs τ sig) W : sProp 𝕄)
      = iprop((((c : Thread nD τ).loc main_arg0) ↦{fullShare} W (Proc.devRef .tc main_arg0)) ∗ (((c : Thread nD τ).loc main_arg1) ↦{fullShare} W (Proc.devRef .tc main_arg1))
          ∗ (((c : Thread nD τ).loc main_v0) ↦{fullShare} W (Proc.devRef .tc main_v0)) ∗ (((c : Thread nD τ).loc main_v1) ↦{fullShare} W (Proc.devRef .tc main_v1))
          ∗ (((c : Thread nD τ).loc main_v2_0) ↦{fullShare} W (Proc.devRef .tc main_v2_0)) ∗ (((c : Thread nD τ).loc main_v2_1) ↦{fullShare} W (Proc.devRef .tc main_v2_1))
          ∗ (((c : Thread nD τ).loc main_v3) ↦{fullShare} W (Proc.devRef .tc main_v3)) ∗ (((c : Thread nD τ).loc main_v4) ↦{fullShare} W (Proc.devRef .tc main_v4))
          ∗ (((c : Thread nD τ).loc main_v5) ↦{fullShare} W (Proc.devRef .tc main_v5)) ∗ (((c : Thread nD τ).loc main_v6) ↦{fullShare} W (Proc.devRef .tc main_v6))
          ∗ (((c : Thread nD τ).loc main_v7) ↦{fullShare} W (Proc.devRef .tc main_v7))) :=
  (held_eq c W).trans rfl

/-! ## The pipeline's arrays, one by one -/

theorem share0 (c : Dev nD) : (dat m c).share 0 = fullShare := rfl
theorem share1 (c : Dev nD) : (dat m c).share 1 = fullShare.left := rfl
theorem share2 (c : Dev nD) : (dat m c).share 2 = fullShare.right := rfl
theorem share3 (c : Dev nD) : (dat m c).share 3 = fullShare := rfl
theorem share4 (c : Dev nD) : (dat m c).share 4 = fullShare := rfl

/-- The scores array whole, the features array in halves, the two results whole. -/
theorem arrays_eq5 (c : Dev nD) (G : (w : Fin cfg0.W) → Buf (Elt F) ((cfg0.win w).arr.view.loc (c : Thread nD τ))) :
    ((dat m c).arrays G : sProp 𝕄)
      = iprop((((c : Thread nD τ).loc main_v1) ↦{fullShare} G 0) ∗ (((c : Thread nD τ).loc main_v0) ↦{fullShare.left} G 1)
          ∗ (((c : Thread nD τ).loc main_v0) ↦{fullShare.right} G 2) ∗ (((c : Thread nD τ).loc main_v2_0) ↦{fullShare} G 3)
          ∗ (((c : Thread nD τ).loc main_v2_1) ↦{fullShare} G 4)) := by
  unfold Dat.arrays
  rw [bigSep_W0]
  simp only [(arr_whole0 0).set_eq_univ, (arr_whole0 1).set_eq_univ, (arr_whole0 3).set_eq_univ, (arr_whole0 4).set_eq_univ,
    share0, share1, share2, share3, share4]

/-- The two halves of a share make it. -/
theorem halves_mem : fullShare ∈ (PCS.op fullShare.left fullShare.right : Part (PosShare TreeShare)) := by
  rw [PosShare.left_op_right]; exact Part.mem_some _

/-! ## The segments -/

abbrev adm : (p : Fin 1) → (pcfgs (F := F) p).Adm := fun p => (cfgs p).toPCfg_adm
/-- The one pipeline's proof data. -/
def pdats : (p : Fin 1) → (c : Dev nD) → Dat τ (Elt F) Unit ℕ (UR sig nD τ) ℕ (Pipeline.pin (pcfgs (F := F)) adm p) c
  | ⟨0, _⟩ => fun c => dat m c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host operations as a segment over the thread state. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- What bypasses the region: the two arguments and the five buffers the layout operations will write. -/
abbrev Zc (c : Dev nD) : sProp 𝕄 :=
  iprop((((c : Thread nD τ).loc main_arg0) ↦{fullShare} W1 m c (Proc.devRef .tc main_arg0)) ∗ (((c : Thread nD τ).loc main_arg1) ↦{fullShare} W1 m c (Proc.devRef .tc main_arg1))
    ∗ (((c : Thread nD τ).loc main_v3) ↦{fullShare} W1 m c (Proc.devRef .tc main_v3)) ∗ (((c : Thread nD τ).loc main_v4) ↦{fullShare} W1 m c (Proc.devRef .tc main_v4))
    ∗ (((c : Thread nD τ).loc main_v5) ↦{fullShare} W1 m c (Proc.devRef .tc main_v5)) ∗ (((c : Thread nD τ).loc main_v6) ↦{fullShare} W1 m c (Proc.devRef .tc main_v6))
    ∗ (((c : Thread nD τ).loc main_v7) ↦{fullShare} W1 m c (Proc.devRef .tc main_v7)))

set_option backward.isDefEq.respectTransparency.types false in
/-- THE REGION over the thread state: entered from every unscoped buffer at the contents after the reshapes, left
    with the two results at what the write-backs leave. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Zc m c
  hentry c := by
    rw [Pipeline.ownSems0_none, held_eq']
    rw [show (pdats m 0 c).arrays ((pdats m 0 c).arrAt · 0) = (dat m c).arrays ((dat m c).arrAt · 0) from rfl, arrays_eq5]
    iintro ⟨⟨⟨Ha0, Ha1, Hv0, Hv1, H20, H21, H3, H4, H5, H6, H7⟩, Hp, HO⟩, -, -⟩
    ihave Hs := (pointsTo_share (f := W1 m c (Proc.devRef .tc main_v0)) (I := Finset.univ) (ℓ := (c : Thread nD τ).loc main_v0) halves_mem).1 $$ Hv0
    icases Hs with ⟨HvL, HvR⟩
    imodintro
    isplitl [Hv1 HvL HvR H20 H21]
    · isplitl [Hv1]; · iexact Hv1
      isplitl [HvL]; · iexact HvL
      isplitl [HvR]; · iexact HvR
      isplitl [H20]; · iexact H20
      iexact H21
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha0]; · iexact Ha0
    isplitl [Ha1]; · iexact Ha1
    isplitl [H3]; · iexact H3
    isplitl [H4]; · iexact H4
    isplitl [H5]; · iexact H5
    isplitl [H6]; · iexact H6
    iexact H7
  hin c := by
    rw [show (pdats m 0 c).Φ 0 = (dat m c).Φ 0 from rfl]
    refine BIBase.Entails.trans ?_ (hin m c)
    unfold Pipeline.ΦA
    iintro ⟨Hp, -, Hr⟩
    isplitl [Hr]; · iexact Hr
    iexact Hp
  hout c := by
    rw [Pipeline.ownSems0_none, show (pdats m 0 c).Φ (Fin.last _) = (dat m c).Φ (Fin.last cfg0.N) from rfl]
    refine BIBase.Entails.trans (hout m c) ?_
    unfold Pipeline.ΦA
    iintro ⟨Hr, Hp⟩
    isplitl [Hp]; · iexact Hp
    isplitr; · iempintro
    iexact Hr
  hexit c := by
    rw [held_eq']
    rw [show (pdats m 0 c).arrays ((pdats m 0 c).arrAt · (Pipeline.pin (pcfgs (F := F)) adm 0).N) = (dat m c).arrays ((dat m c).arrAt · cfg0.N) from rfl, arrays_eq5]
    rw [W2_of_ne m c main_arg0 (by decide) (by decide), W2_of_ne m c main_arg1 (by decide) (by decide),
      W2_of_ne m c main_v0 (by decide) (by decide), W2_of_ne m c main_v1 (by decide) (by decide),
      W2_v2_0, W2_v2_1,
      W2_of_ne m c main_v3 (by decide) (by decide), W2_of_ne m c main_v4 (by decide) (by decide),
      W2_of_ne m c main_v5 (by decide) (by decide), W2_of_ne m c main_v6 (by decide) (by decide),
      W2_of_ne m c main_v7 (by decide) (by decide)]
    rw [(dat m c).arrAt_in 0 rfl cfg0.N, (dat m c).arrAt_in 1 rfl cfg0.N, (dat m c).arrAt_in 2 rfl cfg0.N]
    iintro ⟨⟨Hv1, HvL, HvR, H20, H21⟩, HO, HY, ⟨Ha0, Ha1, H3, H4, H5, H6, H7⟩⟩
    ihave Hv0 := (pointsTo_share (f := W1 m c (Proc.devRef .tc main_v0)) (I := Finset.univ) (ℓ := (c : Thread nD τ).loc main_v0) halves_mem).2 $$ [HvL HvR]
    · isplitl [HvL]; · iexact HvL
      iexact HvR
    imodintro
    isplitr [HY HO]
    · isplitl [Ha0]; · iexact Ha0
      isplitl [Ha1]; · iexact Ha1
      isplitl [Hv0]; · iexact Hv0
      isplitl [Hv1]; · iexact Hv1
      isplitl [H20]; · iexact H20
      isplitl [H21]; · iexact H21
      isplitl [H3]; · iexact H3
      isplitl [H4]; · iexact H4
      isplitl [H5]; · iexact H5
      isplitl [H6]; · iexact H6
      iexact H7
    isplitl [HY]; · iexact HY
    unfold Pipeline.Dat.owesAt Pipeline.owesWithin
    icases HO with ⟨%W, -, HO⟩; iexists W; iexact HO

/-- @main's three segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]

/-- @main is the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

set_option backward.isDefEq.respectTransparency.types false in
/-- THE RUN: from any memory with zero counters every weakly fair execution of @main terminates, nothing faulting,
    and every final state holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show (iprop(StableHlo.held (c : Thread nD τ) (Pipeline.ucRefs τ sig) (W3 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched -/

/-- The reshapes write their own results only; -/
theorem not_written0 (b : Ref sig .tc) (h0 : b ≠ main_v0) (h1 : b ≠ main_v1) :
    ∀ op ∈ (hostOps0 (F := F)), Proc.devRef .tc b ∉ op.writes := by
  intro op hop
  simp only [List.mem_cons, List.mem_nil_iff, or_false] at hop
  rcases hop with rfl | rfl <;>
    simp only [StableHlo.reshape_writes, Finset.mem_singleton] <;>
    exact StableHlo.devRef_ne_of_ne ‹_›

/-- and so do the five layout operations. -/
theorem not_written1 (b : Ref sig .tc) (h3 : b ≠ main_v3) (h4 : b ≠ main_v4) (h5 : b ≠ main_v5) (h6 : b ≠ main_v6) (h7 : b ≠ main_v7) :
    ∀ op ∈ (hostOps1 (F := F)), Proc.devRef .tc b ∉ op.writes := by
  intro op hop
  simp only [List.mem_cons, List.mem_nil_iff, or_false] at hop
  rcases hop with rfl | rfl | rfl | rfl | rfl <;>
    simp only [StableHlo.unary_writes, StableHlo.binary_writes, StableHlo.reshape_writes, Finset.mem_singleton] <;>
    exact StableHlo.devRef_ne_of_ne ‹_›

/-- A buffer no operation writes and the region does not change holds at the end what it held at launch. -/
theorem W3_of_untouched (c : Dev nD) (b : Ref sig .tc) (h0 : b ≠ main_v0) (h1 : b ≠ main_v1) (h20 : b ≠ main_v2_0) (h21 : b ≠ main_v2_1)
    (h3 : b ≠ main_v3) (h4 : b ≠ main_v4) (h5 : b ≠ main_v5) (h6 : b ≠ main_v6) (h7 : b ≠ main_v7) :
    W3 m c (Proc.devRef .tc b) = m ((c : Thread nD τ).loc b) :=
  (StableHlo.after_of_forall_not_mem (b := Proc.devRef .tc b) hostOps1 (W2 m c) (not_written1 b h3 h4 h5 h6 h7)).trans
    ((W2_of_ne m c b h20 h21).trans
      ((StableHlo.after_of_forall_not_mem (b := Proc.devRef .tc b) hostOps0 (W0 m c) (not_written0 b h0 h1)).trans rfl))

/-- THE FRAME: every weakly fair execution of @main terminates, nothing faulting, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans
        (W3_of_untouched m c main_arg0 (by decide) (by decide) (by decide) (by decide) (by decide) (by decide) (by decide) (by decide) (by decide)),
      (h c _ (mem_uc main_arg1 (by decide))).trans
        (W3_of_untouched m c main_arg1 (by decide) (by decide) (by decide) (by decide) (by decide) (by decide) (by decide) (by decide) (by decide))⟩)
    (run_main m ρ)

end Cert.KernelIdeal.Frm

end
-- ==== Proof.Spec.lean ====
/-
  The specification both programs meet, over the two inputs as the programs first reshape them: the scores
  P : [8, 19, 16384] and the features X : [8, 512, 16384].

  For batch row b and class k let M = max over n of P[b, k, n], e[n] = exp(P[b, k, n] − M) and Z = Σ over n of e[n].
  The kernel computes out[b, c, k] = Σ over n of X[b, c, n] · (e[n] · (1 / Z)); the reference computes
  Σ over n of (e'[n] / Z') · X[b, c, n], where e' and Z' are built from 1 · P and from max(−∞, M'). On finite scores
  the two agree: 1 · p = p, max(−∞, x) = x, every e[n] is a positive real, so Z is a positive real and dividing by it
  is multiplying by its reciprocal; the products commute.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The scores, reshaped. -/
abbrev SP : Shape := ⟨3, ![8, 19, 16384]⟩
/-- The features, reshaped. -/
abbrev SX : Shape := ⟨3, ![8, 512, 16384]⟩
/-- The result. -/
abbrev SO : Shape := ⟨4, ![8, 512, 19, 1]⟩

/-- The row maximum as both programs take it: the fold of `max` from −∞ over the spatial positions. -/
def rowMax (P : SP.Idx → EReal) (b : Fin 8) (k : Fin 19) : EReal :=
  (Finset.univ : Finset (Fin 16384)).fold max (⊥ : EReal) (fun n => P (ix3 b k n))

/-! ## The kernel's arrangement -/

/-- The exponential of a score less its row's maximum. -/
def ek (P : SP.Idx → EReal) (b : Fin 8) (k : Fin 19) (n : Fin 16384) : EReal :=
  Ideal.exp (P (ix3 b k n) - rowMax P b k)

/-- The row's sum of those. -/
def zk (P : SP.Idx → EReal) (b : Fin 8) (k : Fin 19) : EReal := ∑ n : Fin 16384, ek P b k n

/-- The softmax weight as the kernel forms it: the exponential times the reciprocal of the row's sum. -/
def wk (P : SP.Idx → EReal) (b : Fin 8) (k : Fin 19) (n : Fin 16384) : EReal :=
  ek P b k n * Ideal.div 1 (zk P b k)

/-- The kernel's result: features against weights, contracted over the spatial positions. -/
def Gk (P : SP.Idx → EReal) (X : SX.Idx → EReal) : SO.Idx → EReal := fun j =>
  ∑ n : Fin 16384, X (ix3 (j 0) (j 1) n) * wk P (j 0) (j 2) n

theorem Gk_apply (P : SP.Idx → EReal) (X : SX.Idx → EReal) (b : Fin 8) (c : Fin 512) (k : Fin 19) (z : Fin 1) :
    Gk P X (ix4 b c k z) = ∑ n : Fin 16384, X (ix3 b c n) * wk P b k n := rfl

/-! ## The reference's arrangement -/

/-- The reference scales the scores by one first. -/
def p1 (P : SP.Idx → EReal) (b : Fin 8) (k : Fin 19) (n : Fin 16384) : EReal := 1 * P (ix3 b k n)

/-- Its row maximum, taken once more against −∞. -/
def rowMaxR (P : SP.Idx → EReal) (b : Fin 8) (k : Fin 19) : EReal :=
  max (⊥ : EReal) ((Finset.univ : Finset (Fin 16384)).fold max (⊥ : EReal) (fun n => p1 P b k n))

def er (P : SP.Idx → EReal) (b : Fin 8) (k : Fin 19) (n : Fin 16384) : EReal :=
  Ideal.exp (p1 P b k n - rowMaxR P b k)

/-- Its row sum starts from zero. -/
def zr (P : SP.Idx → EReal) (b : Fin 8) (k : Fin 19) : EReal := 0 + ∑ n : Fin 16384, er P b k n

/-- The softmax weight as the reference forms it: the quotient. -/
def wr (P : SP.Idx → EReal) (b : Fin 8) (k : Fin 19) (n : Fin 16384) : EReal :=
  Ideal.div (er P b k n) (zr P b k)

/-- The reference's result: weights against features. -/
def Gr (P : SP.Idx → EReal) (X : SX.Idx → EReal) : SO.Idx → EReal := fun j =>
  ∑ n : Fin 16384, wr P (j 0) (j 2) n * X (ix3 (j 0) (j 1) n)

theorem Gr_apply (P : SP.Idx → EReal) (X : SX.Idx → EReal) (b : Fin 8) (c : Fin 512) (k : Fin 19) (z : Fin 1) :
    Gr P X (ix4 b c k z) = ∑ n : Fin 16384, wr P b k n * X (ix3 b c n) := rfl

/-! ## What the region leaves in its two result arrays -/

/-- A result array of the region: [8, 2, 128, 19], batch row, block pair, row in the block, class. -/
abbrev SR : Shape := ⟨4, ![8, 2, 128, 19]⟩

/-- The feature channel behind row r of the even block of pair cb, -/
def chA (cb : Fin 2) (r : Fin 128) : Fin 512 := ⟨256 * cb.val + r.val, by omega⟩
/-- and of the odd block. -/
def chB (cb : Fin 2) (r : Fin 128) : Fin 512 := ⟨256 * cb.val + 128 + r.val, by omega⟩

/-- The first result: the even feature blocks against the weights. -/
def OA (P : SP.Idx → EReal) (X : SX.Idx → EReal) : SR.Idx → EReal := fun i =>
  ∑ n : Fin 16384, X (ix3 (i 0) (chA (i 1) (i 2)) n) * wk P (i 0) (i 3) n
/-- The second: the odd feature blocks. -/
def OB (P : SP.Idx → EReal) (X : SX.Idx → EReal) : SR.Idx → EReal := fun i =>
  ∑ n : Fin 16384, X (ix3 (i 0) (chB (i 1) (i 2)) n) * wk P (i 0) (i 3) n

theorem OA_apply (P : SP.Idx → EReal) (X : SX.Idx → EReal) (b : Fin 8) (cb : Fin 2) (r : Fin 128) (k : Fin 19) :
    OA P X (ix4 b cb r k) = ∑ n : Fin 16384, X (ix3 b (chA cb r) n) * wk P b k n := rfl
theorem OB_apply (P : SP.Idx → EReal) (X : SX.Idx → EReal) (b : Fin 8) (cb : Fin 2) (r : Fin 128) (k : Fin 19) :
    OB P X (ix4 b cb r k) = ∑ n : Fin 16384, X (ix3 b (chB cb r) n) * wk P b k n := rfl

end Cert.Spec

end
-- ==== Proof.LibKeepdims.lean ====
/-
  Two layout readings of a kept axis of extent one, for any element type and any extents:
  a vector [a] viewed as a column [a,1] reads its entry i at (i,0); a column [a,1] spread over the
  columns of [a,b] reads its entry (i,0) at every (i,j).  Both name the operand's index by
  coordinates, so that a sum or a product over a row can be rewritten term by term.
-/
import Idealize.ShloMosaic.Lib.Pipeline.Value
import Idealize.ShloMosaic.Lib.ValueIdx

namespace Idealize.ShloMosaic.ValueIdx

open Idealize.ShloMosaic

variable {α : Type}

/-- A vector of `a` entries viewed as an `a × 1` column: entry `(i, u)` is entry `i` of the vector
    (the only value of `u` is 0, and row-major position `i · 1 + 0` is `i`). -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt; omega)

/-- An `a × 1` column spread over `b` columns: entry `(i, j)` is the column's entry `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.KI.Pay.lean ====
/-
  The kernel's three payloads read at an index, at the extended reals: the softmax weights of a scores block, and a
  feature block against weights.
-/
import proofs.«176334_g94489280978_feedfinal_143_10_alg».proof.Proof.KI.Vals
import proofs.«176334_g94489280978_feedfinal_143_10_alg».proof.Proof.Spec
import proofs.«176334_g94489280978_feedfinal_143_10_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem

/-! ## The softmax weights -/

/-- The word of one is one. -/
theorem one_word : Ideal.ofBits .f32 0x3F800000#32 = 1 := IdealRules.sign_bit.ideal_onePat .f32

/-- The word of minus infinity is the least extended real. -/
theorem bot_word : Ideal.ofBits .f32 0xFF800000#32 = (⊥ : EReal) := by simp [Ideal.ofBits, Ideal.ieee]

/-- The exponential of a vector, entry by entry. -/
theorem exp_apply {s : Shape} (a : FVec Ideal s .f32) (i : s.Idx) : exp a i = Ideal.exp (a i) := rfl

/-- A row's maximum: the fold of max from the least extended real over the row's positions. -/
theorem rowmax_apply (y : FVec Ideal S19x16384 .f32) (h : Shape.Reduces S19x16384 [1] S19) (hφ : FKind.Formats .f32)
    (hacc : (0xFF800000#32 : BitVec 32) = 0xFF800000#32) (k : Fin 19) :
    multiReduction (F := Ideal) .maximumf [1] S19 y 0xFF800000#32 h hφ hacc (ix1 k)
      = (Finset.univ : Finset (Fin 16384)).fold max (⊥ : EReal) (fun n => y (ix2 k n)) := by
  refine (Ideal.multiReduction_maximumf_single y _ h hφ hacc (ix1 k)).trans ?_
  show (Finset.univ : Finset (Fin 16384)).fold max (Ideal.ofBits .f32 0xFF800000#32) (fun n => y (h.lift (ix1 k) n)) = _
  rw [bot_word]
  have e : ∀ n : Fin 16384, h.lift (ix1 k) n = ix2 k n := fun n => funext fun a => by
    match a with
    | ⟨0, _⟩ => rfl
    | ⟨1, _⟩ => rfl
  exact congrArg (fun f => Finset.fold max (⊥ : EReal) f Finset.univ) (funext fun n => congrArg y (e n))

/-- A row's sum over its positions. -/
theorem rowsum_apply (y : FVec Ideal S19x16384 .f32) (h : Shape.Reduces S19x16384 [1] S19) (hφ : FKind.Formats .f32)
    (hacc : (0x00000000#32 : BitVec 32) = 0x00000000#32) (k : Fin 19) :
    multiReduction (F := Ideal) .add [1] S19 y 0x00000000#32 h hφ hacc (ix1 k) = ∑ n : Fin 16384, y (ix2 k n) := by
  refine (Ideal.multiReduction_add_single y _ h hφ hacc (ix1 k)).trans ?_
  show ∑ n : Fin 16384, y (h.lift (ix1 k) n) = _
  have e : ∀ n : Fin 16384, h.lift (ix1 k) n = ix2 k n := fun n => funext fun a => by
    match a with
    | ⟨0, _⟩ => rfl
    | ⟨1, _⟩ => rfl
  exact Finset.sum_congr rfl fun n _ => congrArg y (e n)

/-- The weights the kernel forms from a scores block are the specification's, when the block is batch row b of P:
    the block's unit axis is dropped, each row's maximum is kept as a column and spread back over the row, the
    exponentials of the differences are summed along the row, and each is multiplied by the reciprocal of its row's
    sum, again kept as a column and spread back. -/
theorem pay1_at (x0 : FVec Ideal S1x19x16384 .f32) (P : Cert.Spec.SP.Idx → EReal) (b : Fin 8)
    (hP : ∀ (k : Fin 19) (n : Fin 16384), x0 (ix3 (0 : Fin 1) k n) = P (ix3 b k n)) (k : Fin 19) (n : Fin 16384) :
    k0_pay1 (F := Ideal) x0 (ix2 k n) = Cert.Spec.wk P b k n := by
  unfold k0_pay1
  dsimp only
  have hy : ∀ (k : Fin 19) (n : Fin 16384), shapeCast S19x16384 x0 shapeCasts_S1x19x16384_S19x16384 (ix2 k n) = P (ix3 b k n) :=
    fun k n => (shapeCast_1ab_ab_apply x0 _ k n).trans (hP k n)
  generalize shapeCast S19x16384 x0 shapeCasts_S1x19x16384_S19x16384 = y at hy ⊢
  simp only [shapeCast_self, mulf_apply, subf_apply, divf_apply, exp_apply, broadcast_apply, broadcastTo_a1_ab_apply,
    shapeCast_a_a1_apply, hy]
  rw [rowmax_apply y, rowsum_apply]
  simp only [exp_apply, subf_apply, broadcastTo_a1_ab_apply, shapeCast_a_a1_apply, rowmax_apply y, hy]
  rw [show (FloatOps.ofBits .f32 0x3F800000#32 : Ideal .f32) = 1 from one_word]
  rfl

/-! ## A feature block against the weights -/

/-! The product's operand indices, axis by axis. -/
theorem lhs_dot_0 (i : S128x19.Idx) (q : dot_S128x16384_S19x16384_S128x19_1_1_0_0_n_n.contr.Idx) :
    (dot_S128x16384_S19x16384_S128x19_1_1_0_0_n_n.lhsIdx i q 0).val = (i 0).val := by
  unfold DotDims.lhsIdx
  rw [dif_neg (show ¬(0 : Fin S128x16384.rank) ∈ dot_S128x16384_S19x16384_S128x19_1_1_0_0_n_n.lhsBatch by decide), dif_pos (show (0 : Fin S128x16384.rank) ∈ dot_S128x16384_S19x16384_S128x19_1_1_0_0_n_n.lhsNonContracting by decide)]
  rfl
theorem lhs_dot_1 (i : S128x19.Idx) (q : dot_S128x16384_S19x16384_S128x19_1_1_0_0_n_n.contr.Idx) :
    (dot_S128x16384_S19x16384_S128x19_1_1_0_0_n_n.lhsIdx i q 1).val = (q ⟨0, by decide⟩).val :=
  dot_S128x16384_S19x16384_S128x19_1_1_0_0_n_n.lhsIdx_val_of_single rfl i q
theorem rhs_dot_0 (i : S128x19.Idx) (q : dot_S128x16384_S19x16384_S128x19_1_1_0_0_n_n.contr.Idx) :
    (dot_S128x16384_S19x16384_S128x19_1_1_0_0_n_n.rhsIdx i q 0).val = (i 1).val := by
  unfold DotDims.rhsIdx
  rw [dif_neg (show ¬(0 : Fin S19x16384.rank) ∈ dot_S128x16384_S19x16384_S128x19_1_1_0_0_n_n.rhsBatch by decide), dif_pos (show (0 : Fin S19x16384.rank) ∈ dot_S128x16384_S19x16384_S128x19_1_1_0_0_n_n.rhsNonContracting by decide)]
  rfl
theorem rhs_dot_1 (i : S128x19.Idx) (q : dot_S128x16384_S19x16384_S128x19_1_1_0_0_n_n.contr.Idx) :
    (dot_S128x16384_S19x16384_S128x19_1_1_0_0_n_n.rhsIdx i q 1).val = (q ⟨0, by decide⟩).val :=
  dot_S128x16384_S19x16384_S128x19_1_1_0_0_n_n.rhsIdx_val_of_single rfl i q

/-- 128 feature rows against the 19 rows of weights, into a zero accumulator: entry (r, k) is the sum over the
    positions of feature row r times weight row k. -/
theorem prod_apply (X : FVec Ideal S128x16384 .f32) (w : FVec Ideal S19x16384 .f32) (r : Fin 128) (k : Fin 19) :
    matmul (F := Ideal) dot_S128x16384_S19x16384_S128x19_1_1_0_0_n_n none X w (constant (F := Ideal) S128x19 .f32 0x00000000#32) (ix2 r k)
      = ∑ n : Fin 16384, X (ix2 r n) * w (ix2 k n) := by
  simp only [matmul]
  rw [Ideal.matmul_constant_zero_apply, ← Equiv.sum_comp (contrEquiv1 dot_S128x16384_S19x16384_S128x19_1_1_0_0_n_n 16384 rfl rfl).symm]
  refine Finset.sum_congr rfl fun n _ => ?_
  have hn := contrEquiv1_symm_val dot_S128x16384_S19x16384_S128x19_1_1_0_0_n_n 16384 rfl rfl n
  have el : dot_S128x16384_S19x16384_S128x19_1_1_0_0_n_n.lhsIdx (ix2 r k) ((contrEquiv1 dot_S128x16384_S19x16384_S128x19_1_1_0_0_n_n 16384 rfl rfl).symm n) = ix2 r n := funext fun a => Fin.ext (by
    match a with
    | ⟨0, _⟩ => exact lhs_dot_0 _ _
    | ⟨1, _⟩ => exact (lhs_dot_1 _ _).trans hn)
  have er : dot_S128x16384_S19x16384_S128x19_1_1_0_0_n_n.rhsIdx (ix2 r k) ((contrEquiv1 dot_S128x16384_S19x16384_S128x19_1_1_0_0_n_n 16384 rfl rfl).symm n) = ix2 k n := funext fun a => Fin.ext (by
    match a with
    | ⟨0, _⟩ => exact rhs_dot_0 _ _
    | ⟨1, _⟩ => exact (rhs_dot_1 _ _).trans hn)
  rw [el, er]

/-- A [128, 19] result stored as a [1, 1, 128, 19] block reads, at (0, 0, r, k), its entry (r, k): the two
    row-major positions are equal. -/
theorem cast_out_apply {α : Type} (v : S128x19.Idx → α) (h : S128x19.ShapeCasts S1x1x128x19) (r : Fin 128) (k : Fin 19) :
    shapeCast S1x1x128x19 v h (ix4 (0 : Fin 1) (0 : Fin 1) r k) = v (ix2 r k) :=
  shapeCast_apply v h _ _ (by
    rw [Shape.rowMajor_val_four, Shape.rowMajor_val_two]
    show r.val * 19 + k.val = ((0 * 1 + 0) * 128 + r.val) * 19 + k.val
    omega)

/-- A feature block against weights: the contraction over the spatial positions. -/
theorem pay2_at (w : FVec Ideal S19x16384 .f32) (x1 : FVec Ideal S1x128x16384 .f32) (r : Fin 128) (k : Fin 19) :
    k0_pay2 (F := Ideal) w x1 (ix4 (0 : Fin 1) (0 : Fin 1) r k) = ∑ n : Fin 16384, x1 (ix3 (0 : Fin 1) r n) * w (ix2 k n) := by
  unfold k0_pay2
  refine (cast_out_apply _ _ r k).trans ?_
  refine (prod_apply _ w r k).trans ?_
  refine Finset.sum_congr rfl fun n _ => ?_
  exact congrArg (· * w (ix2 k n)) (shapeCast_1ab_ab_apply x1 _ r n)

theorem pay3_at (w : FVec Ideal S19x16384 .f32) (x2 : FVec Ideal S1x128x16384 .f32) (r : Fin 128) (k : Fin 19) :
    k0_pay3 (F := Ideal) w x2 (ix4 (0 : Fin 1) (0 : Fin 1) r k) = ∑ n : Fin 16384, x2 (ix3 (0 : Fin 1) r n) * w (ix2 k n) := by
  unfold k0_pay3
  refine (cast_out_apply _ _ r k).trans ?_
  refine (prod_apply _ w r k).trans ?_
  refine Finset.sum_congr rfl fun n _ => ?_
  exact congrArg (· * w (ix2 k n)) (shapeCast_1ab_ab_apply x2 _ r n)

end Cert.KernelIdeal.Frm

end
-- ==== Proof.KI.Blocks.lean ====
/-
  From blocks to arrays: what each result array of the region holds after the last point, as one function of the
  two arrays the region read.

  Point t = 2·b + cb of the grid works on batch row b and block pair cb. Its scores block is row b of the scores
  array; its two feature blocks are rows 256·cb … 256·cb + 127 and 256·cb + 128 … 256·cb + 255 of row b of the
  features array; it writes block (b, cb) of each result array. So what it writes back is that block of the
  specification's array, every index of a result array lies in exactly the block of the point 2·b + cb, and each
  result array ends as the specification's.
-/
import proofs.«176334_g94489280978_feedfinal_143_10_alg».proof.Proof.KI.Pay

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The points -/

/-- A point's batch row -/
def bOf (t : Fin cfg0.N) : Fin 8 := ⟨t.val / 2, by have h := t.isLt; have hN : cfg0.N = 16 := N_0; omega⟩
/-- and block pair. -/
def cbOf (t : Fin cfg0.N) : Fin 2 := ⟨t.val % 2, by omega⟩

/-- The printed index maps, decided over the grid. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = 2 * (t.val % 2) ∧ win0_1.index t (2 : Fin 3) = 0
    ∧ win0_2.index t (0 : Fin 3) = t.val / 2 ∧ win0_2.index t (1 : Fin 3) = 2 * (t.val % 2) + 1 ∧ win0_2.index t (2 : Fin 3) = 0
    ∧ win0_3.index t (0 : Fin 4) = t.val / 2 ∧ win0_3.index t (1 : Fin 4) = t.val % 2 ∧ win0_3.index t (2 : Fin 4) = 0 ∧ win0_3.index t (3 : Fin 4) = 0
    ∧ win0_4.index t (0 : Fin 4) = t.val / 2 ∧ win0_4.index t (1 : Fin 4) = t.val % 2 ∧ win0_4.index t (2 : Fin 4) = 0 ∧ win0_4.index t (3 : Fin 4) = 0 :=
  (by decide +kernel : ∀ t : Fin grid0.N, _)

/-! ## The blocks read at coordinates -/

/-- The scores block of a point is its batch row of the scores array. -/
theorem iblk0_at (c : Dev nD) (t : Fin cfg0.N) (k : Fin 19) (n : Fin 16384) :
    iblk m c 0 t (ix3 (0 : Fin 1) k n) = V1 m c main_v1 (ix3 (bOf t) k n) := by
  show V1 m c main_v1 (((cfg0.win 0).blk t).view.emb (ix3 (0 : Fin 1) k n)) = V1 m c main_v1 (ix3 (bOf t) k n)
  refine congrArg _ ?_
  obtain ⟨e0, e1, e2, -⟩ := idx_facts t
  funext a; apply Fin.ext
  match a with
  | ⟨0, _⟩ => show win0_0.index t (0 : Fin 3) * 1 + 1 * 0 = t.val / 2; omega
  | ⟨1, _⟩ => show win0_0.index t (1 : Fin 3) * 19 + 1 * k.val = k.val; omega
  | ⟨2, _⟩ => show win0_0.index t (2 : Fin 3) * 16384 + 1 * n.val = n.val; omega

/-- The even feature block: rows 256·cb + r. -/
theorem iblk1_at (c : Dev nD) (t : Fin cfg0.N) (r : Fin 128) (n : Fin 16384) :
    iblk m c 1 t (ix3 (0 : Fin 1) r n) = V1 m c main_v0 (ix3 (bOf t) (Cert.Spec.chA (cbOf t) r) n) := by
  show V1 m c main_v0 (((cfg0.win 1).blk t).view.emb (ix3 (0 : Fin 1) r n)) = V1 m c main_v0 (ix3 (bOf t) (Cert.Spec.chA (cbOf t) r) n)
  refine congrArg _ ?_
  obtain ⟨-, -, -, e0, e1, e2, -⟩ := idx_facts t
  funext a; apply Fin.ext
  match a with
  | ⟨0, _⟩ => show win0_1.index t (0 : Fin 3) * 1 + 1 * 0 = t.val / 2; omega
  | ⟨1, _⟩ => show win0_1.index t (1 : Fin 3) * 128 + 1 * r.val = 256 * (t.val % 2) + r.val; omega
  | ⟨2, _⟩ => show win0_1.index t (2 : Fin 3) * 16384 + 1 * n.val = n.val; omega

/-- The odd feature block: rows 256·cb + 128 + r. -/
theorem iblk2_at (c : Dev nD) (t : Fin cfg0.N) (r : Fin 128) (n : Fin 16384) :
    iblk m c 2 t (ix3 (0 : Fin 1) r n) = V1 m c main_v0 (ix3 (bOf t) (Cert.Spec.chB (cbOf t) r) n) := by
  show V1 m c main_v0 (((cfg0.win 2).blk t).view.emb (ix3 (0 : Fin 1) r n)) = V1 m c main_v0 (ix3 (bOf t) (Cert.Spec.chB (cbOf t) r) n)
  refine congrArg _ ?_
  obtain ⟨-, -, -, -, -, -, e0, e1, e2, -⟩ := idx_facts t
  funext a; apply Fin.ext
  match a with
  | ⟨0, _⟩ => show win0_2.index t (0 : Fin 3) * 1 + 1 * 0 = t.val / 2; omega
  | ⟨1, _⟩ => show win0_2.index t (1 : Fin 3) * 128 + 1 * r.val = 256 * (t.val % 2) + 128 + r.val; omega
  | ⟨2, _⟩ => show win0_2.index t (2 : Fin 3) * 16384 + 1 * n.val = n.val; omega

/-- Where block (b, cb) of a result array sits. -/
theorem emb3_at (t : Fin cfg0.N) (r : Fin 128) (k : Fin 19) :
    ((cfg0.win 3).blk t).view.emb (ix4 (0 : Fin 1) (0 : Fin 1) r k) = ix4 (bOf t) (cbOf t) r k := by
  obtain ⟨-, -, -, -, -, -, -, -, -, e0, e1, e2, e3, -⟩ := idx_facts t
  funext a; apply Fin.ext
  match a with
  | ⟨0, _⟩ => show win0_3.index t (0 : Fin 4) * 1 + 1 * 0 = t.val / 2; omega
  | ⟨1, _⟩ => show win0_3.index t (1 : Fin 4) * 1 + 1 * 0 = t.val % 2; omega
  | ⟨2, _⟩ => show win0_3.index t (2 : Fin 4) * 128 + 1 * r.val = r.val; omega
  | ⟨3, _⟩ => show win0_3.index t (3 : Fin 4) * 19 + 1 * k.val = k.val; omega

theorem emb4_at (t : Fin cfg0.N) (r : Fin 128) (k : Fin 19) :
    ((cfg0.win 4).blk t).view.emb (ix4 (0 : Fin 1) (0 : Fin 1) r k) = ix4 (bOf t) (cbOf t) r k := by
  obtain ⟨-, -, -, -, -, -, -, -, -, -, -, -, -, e0, e1, e2, e3⟩ := idx_facts t
  funext a; apply Fin.ext
  match a with
  | ⟨0, _⟩ => show win0_4.index t (0 : Fin 4) * 1 + 1 * 0 = t.val / 2; omega
  | ⟨1, _⟩ => show win0_4.index t (1 : Fin 4) * 1 + 1 * 0 = t.val % 2; omega
  | ⟨2, _⟩ => show win0_4.index t (2 : Fin 4) * 128 + 1 * r.val = r.val; omega
  | ⟨3, _⟩ => show win0_4.index t (3 : Fin 4) * 19 + 1 * k.val = k.val; omega

/-! ## What a point writes back -/

/-- An uncut write-back takes the staging buffer's contents as they are, -/
theorem cut3_at (X : FVec Ideal S1x1x128x19 .f32) (t : Fin cfg0.N) (r : Fin 128) (k : Fin 19) :
    (cfg0.win 3).cut (grid0.coords t) X (ix4 (0 : Fin 1) (0 : Fin 1) r k) = X (ix4 (0 : Fin 1) (0 : Fin 1) r k) := rfl
theorem cut4_at (X : FVec Ideal S1x1x128x19 .f32) (t : Fin cfg0.N) (r : Fin 128) (k : Fin 19) :
    (cfg0.win 4).cut (grid0.coords t) X (ix4 (0 : Fin 1) (0 : Fin 1) r k) = X (ix4 (0 : Fin 1) (0 : Fin 1) r k) := rfl
/-- and a block of an array read at an index is the array at the index's place. -/
theorem read3_at (G : S8x2x128x19.Idx → EReal) (t : Fin cfg0.N) (r : Fin 128) (k : Fin 19) :
    ((cfg0.win 3).blk t).view.read (Elt Ideal) G (ix4 (0 : Fin 1) (0 : Fin 1) r k)
      = G (((cfg0.win 3).blk t).view.emb (ix4 (0 : Fin 1) (0 : Fin 1) r k)) := rfl
theorem read4_at (G : S8x2x128x19.Idx → EReal) (t : Fin cfg0.N) (r : Fin 128) (k : Fin 19) :
    ((cfg0.win 4).blk t).view.read (Elt Ideal) G (ix4 (0 : Fin 1) (0 : Fin 1) r k)
      = G (((cfg0.win 4).blk t).view.emb (ix4 (0 : Fin 1) (0 : Fin 1) r k)) := rfl

/-- What point t writes back to the first result array is block t of the specification's array. -/
theorem flushed3_eq (c : Dev nD) (t : Fin cfg0.N) :
    (dat m c).flushed 3 t = ((cfg0.win 3).blk t).view.read (Elt Ideal) (Cert.Spec.OA (V1 m c main_v1) (V1 m c main_v0)) := by
  show (cfg0.win 3).cut (grid0.coords t) ((dat m c).after 3 t) = _
  rw [after0_3]
  funext j
  obtain ⟨q0, q1, r, k, rfl⟩ : ∃ (q0 : Fin 1) (q1 : Fin 1) (r : Fin 128) (k : Fin 19), j = ix4 q0 q1 r k := ⟨j 0, j 1, j 2, j 3, eq_ix4 j⟩
  obtain rfl : q0 = 0 := Subsingleton.elim _ _
  obtain rfl : q1 = 0 := Subsingleton.elim _ _
  refine (cut3_at _ t r k).trans ?_
  refine Eq.trans ?_ (read3_at _ t r k).symm
  rw [emb3_at, Cert.Spec.OA_apply]
  refine (pay2_at _ _ r k).trans ?_
  refine Finset.sum_congr rfl fun n _ => ?_
  rw [iblk1_at m c t r n, pay1_at (iblk m c 0 t) (V1 m c main_v1) (bOf t) (fun k n => iblk0_at m c t k n) k n]

theorem flushed4_eq (c : Dev nD) (t : Fin cfg0.N) :
    (dat m c).flushed 4 t = ((cfg0.win 4).blk t).view.read (Elt Ideal) (Cert.Spec.OB (V1 m c main_v1) (V1 m c main_v0)) := by
  show (cfg0.win 4).cut (grid0.coords t) ((dat m c).after 4 t) = _
  rw [after0_4]
  funext j
  obtain ⟨q0, q1, r, k, rfl⟩ : ∃ (q0 : Fin 1) (q1 : Fin 1) (r : Fin 128) (k : Fin 19), j = ix4 q0 q1 r k := ⟨j 0, j 1, j 2, j 3, eq_ix4 j⟩
  obtain rfl : q0 = 0 := Subsingleton.elim _ _
  obtain rfl : q1 = 0 := Subsingleton.elim _ _
  refine (cut4_at _ t r k).trans ?_
  refine Eq.trans ?_ (read4_at _ t r k).symm
  rw [emb4_at, Cert.Spec.OB_apply]
  refine (pay3_at _ _ r k).trans ?_
  refine Finset.sum_congr rfl fun n _ => ?_
  rw [iblk2_at m c t r n, pay1_at (iblk m c 0 t) (V1 m c main_v1) (bOf t) (fun k n => iblk0_at m c t k n) k n]

/-! ## The cover -/

/-- An index of a result array is in point t's block iff each coordinate is in the block's range on its axis. -/
theorem mem_blk3 (t : Fin cfg0.N) (i : S8x2x128x19.Idx) :
    i ∈ ((cfg0.win 3).blk t).view.set ↔ ∀ a : Fin 4, win0_3.index t a * S1x1x128x19.size a ≤ (i a).val ∧ (i a).val < win0_3.index t a * S1x1x128x19.size a + S1x1x128x19.size a := by
  show i ∈ ((View.whole main_v2_0).slice (win0_3.rect t)).set ↔ _
  rw [View.set_slice_whole, Rect.mem_set_unit]
  exact Iff.rfl

theorem mem_blk4 (t : Fin cfg0.N) (i : S8x2x128x19.Idx) :
    i ∈ ((cfg0.win 4).blk t).view.set ↔ ∀ a : Fin 4, win0_4.index t a * S1x1x128x19.size a ≤ (i a).val ∧ (i a).val < win0_4.index t a * S1x1x128x19.size a + S1x1x128x19.size a := by
  show i ∈ ((View.whole main_v2_1).slice (win0_4.rect t)).set ↔ _
  rw [View.set_slice_whole, Rect.mem_set_unit]
  exact Iff.rfl

/-- The point whose block holds index i: 2·(i 0) + (i 1). -/
def ptOf (i : S8x2x128x19.Idx) : Fin cfg0.N :=
  ⟨2 * (i 0).val + (i 1).val, by have h0 : (i 0).val < 8 := (i 0).isLt; have h1 : (i 1).val < 2 := (i 1).isLt; have hN : cfg0.N = 16 := N_0; omega⟩

theorem cover3 (i : S8x2x128x19.Idx) : ∃ t : Fin cfg0.N, (cfg0.win 3).flush t = true ∧ i ∈ ((cfg0.win 3).blk t).view.set := by
  refine ⟨ptOf i, flush0_3 _, ?_⟩
  rw [mem_blk3]
  obtain ⟨-, -, -, -, -, -, -, -, -, e0, e1, e2, e3, -⟩ := idx_facts (ptOf i)
  have h0 : (i 0).val < 8 := (i 0).isLt
  have h1 : (i 1).val < 2 := (i 1).isLt
  have h2 : (i 2).val < 128 := (i 2).isLt
  have h3 : (i 3).val < 19 := (i 3).isLt
  have hv : (ptOf i).val = 2 * (i 0).val + (i 1).val := rfl
  intro a
  match a with
  | ⟨0, _⟩ => show win0_3.index (ptOf i) (0 : Fin 4) * 1 ≤ (i 0).val ∧ (i 0).val < win0_3.index (ptOf i) (0 : Fin 4) * 1 + 1; omega
  | ⟨1, _⟩ => show win0_3.index (ptOf i) (1 : Fin 4) * 1 ≤ (i 1).val ∧ (i 1).val < win0_3.index (ptOf i) (1 : Fin 4) * 1 + 1; omega
  | ⟨2, _⟩ => show win0_3.index (ptOf i) (2 : Fin 4) * 128 ≤ (i 2).val ∧ (i 2).val < win0_3.index (ptOf i) (2 : Fin 4) * 128 + 128; omega
  | ⟨3, _⟩ => show win0_3.index (ptOf i) (3 : Fin 4) * 19 ≤ (i 3).val ∧ (i 3).val < win0_3.index (ptOf i) (3 : Fin 4) * 19 + 19; omega

theorem cover4 (i : S8x2x128x19.Idx) : ∃ t : Fin cfg0.N, (cfg0.win 4).flush t = true ∧ i ∈ ((cfg0.win 4).blk t).view.set := by
  refine ⟨ptOf i, flush0_4 _, ?_⟩
  rw [mem_blk4]
  obtain ⟨-, -, -, -, -, -, -, -, -, -, -, -, -, e0, e1, e2, e3⟩ := idx_facts (ptOf i)
  have h0 : (i 0).val < 8 := (i 0).isLt
  have h1 : (i 1).val < 2 := (i 1).isLt
  have h2 : (i 2).val < 128 := (i 2).isLt
  have h3 : (i 3).val < 19 := (i 3).isLt
  have hv : (ptOf i).val = 2 * (i 0).val + (i 1).val := rfl
  intro a
  match a with
  | ⟨0, _⟩ => show win0_4.index (ptOf i) (0 : Fin 4) * 1 ≤ (i 0).val ∧ (i 0).val < win0_4.index (ptOf i) (0 : Fin 4) * 1 + 1; omega
  | ⟨1, _⟩ => show win0_4.index (ptOf i) (1 : Fin 4) * 1 ≤ (i 1).val ∧ (i 1).val < win0_4.index (ptOf i) (1 : Fin 4) * 1 + 1; omega
  | ⟨2, _⟩ => show win0_4.index (ptOf i) (2 : Fin 4) * 128 ≤ (i 2).val ∧ (i 2).val < win0_4.index (ptOf i) (2 : Fin 4) * 128 + 128; omega
  | ⟨3, _⟩ => show win0_4.index (ptOf i) (3 : Fin 4) * 19 ≤ (i 3).val ∧ (i 3).val < win0_4.index (ptOf i) (3 : Fin 4) * 19 + 19; omega

/-! ## The arrays after the last point -/

/-- After the last point the first result array holds the even feature blocks against the softmax weights. -/
theorem final3 (c : Dev nD) :
    (dat m c).arrAt 3 cfg0.N = Cert.Spec.OA (V1 m c main_v1) (V1 m c main_v0) :=
  (dat m c).arrAt_eq_of_cover 3 (Cert.Spec.OA (V1 m c main_v1) (V1 m c main_v0)) (fun t _ => flushed3_eq m c t) cover3

/-- And the second the odd feature blocks. -/
theorem final4 (c : Dev nD) :
    (dat m c).arrAt 4 cfg0.N = Cert.Spec.OB (V1 m c main_v1) (V1 m c main_v0) :=
  (dat m c).arrAt_eq_of_cover 4 (Cert.Spec.OB (V1 m c main_v1) (V1 m c main_v0)) (fun t _ => flushed4_eq m c t) cover4

end Cert.KernelIdeal.Frm

end
-- ==== Proof.KI.Tail.lean ====
/-
  The five layout operations after the region: the two result arrays laid side by side along a new axis, the block
  pairs and rows folded into the channel axis, a trailing unit axis added. Read at an index, the result at channel
  256·cb + 128·s + r is result s at (cb, r).
-/
import proofs.«176334_g94489280978_feedfinal_143_10_alg».proof.Proof.KI.Vals
import proofs.«176334_g94489280978_feedfinal_143_10_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The five layout operations, as a function of the two result arrays. -/
def tail (A B : FVec Ideal S8x2x128x19 .f32) : FVec Ideal S8x512x19x1 .f32 :=
  broadcastInDim S8x512x19x1 ![0, 1, 2] bcast_S8x512x19_S8x512x19x1_0_1_2
    (shapeCast S8x512x19
      (concatenate S8x2x2x128x19 2
        [⟨S8x2x1x128x19, broadcastInDim S8x2x1x128x19 ![0, 1, 3, 4] bcast_S8x2x128x19_S8x2x1x128x19_0_1_3_4 A⟩,
         ⟨S8x2x1x128x19, broadcastInDim S8x2x1x128x19 ![0, 1, 3, 4] bcast_S8x2x128x19_S8x2x1x128x19_0_1_3_4 B⟩]
        concatenates_S8x2x1x128x19_S8x2x1x128x19_S8x2x2x128x19_d2)
      shapeCasts_S8x2x2x128x19_S8x512x19)

/-- The program's result is the five operations on the region's two results. -/
theorem W3_main_v7 (c : Dev nD) :
    W3 m c (Proc.devRef .tc main_v7) = tail (W2 m c (Proc.devRef .tc main_v2_0)) (W2 m c (Proc.devRef .tc main_v2_1)) := by
  show StableHlo.after hostOps1 (W2 m c) (Proc.devRef .tc main_v7) = _
  after_results
  rfl

/-- A result array with a unit axis put in third place, read at an index. -/
theorem addUnit_apply (A : FVec Ideal S8x2x128x19 .f32) (b : Fin 8) (cb : Fin 2) (u : Fin 1) (r : Fin 128) (k : Fin 19) :
    broadcastInDim S8x2x1x128x19 ![0, 1, 3, 4] bcast_S8x2x128x19_S8x2x1x128x19_0_1_3_4 A (ix5 b cb u r k) = A (ix4 b cb r k) :=
  broadcastInDim_apply _ bcast_S8x2x128x19_S8x2x1x128x19_0_1_3_4 A (ix5 b cb u r k) (ix4 b cb r k) (fun a => match a with
    | ⟨0, _⟩ => by show b.val = if (8 : Nat) = 1 then 0 else b.val; rw [if_neg (by decide)]
    | ⟨1, _⟩ => by show cb.val = if (2 : Nat) = 1 then 0 else cb.val; rw [if_neg (by decide)]
    | ⟨2, _⟩ => by show r.val = if (128 : Nat) = 1 then 0 else r.val; rw [if_neg (by decide)]
    | ⟨3, _⟩ => by show k.val = if (19 : Nat) = 1 then 0 else k.val; rw [if_neg (by decide)])

/-- Two arrays laid side by side along the third axis, read at an index: the array the third coordinate names. -/
theorem side_apply (x₁ x₂ : FVec Ideal S8x2x1x128x19 .f32) (b : Fin 8) (cb : Fin 2) (s : Fin 2) (r : Fin 128) (k : Fin 19) :
    concatenate S8x2x2x128x19 2 [⟨S8x2x1x128x19, x₁⟩, ⟨S8x2x1x128x19, x₂⟩]
        concatenates_S8x2x1x128x19_S8x2x1x128x19_S8x2x2x128x19_d2 (ix5 b cb s r k)
      = if s.val = 0 then x₁ (ix5 b cb 0 r k) else x₂ (ix5 b cb 0 r k) := by
  by_cases hs : s.val = 0
  · rw [if_pos hs]
    exact concatenate_pair_apply_left 2 x₁ x₂ _ (ix5 b cb s r k) rfl (ix5 b cb 0 r k) (fun a => match a with
      | ⟨0, _⟩ => rfl
      | ⟨1, _⟩ => rfl
      | ⟨2, _⟩ => by show (0 : Nat) = s.val; omega
      | ⟨3, _⟩ => rfl
      | ⟨4, _⟩ => rfl)
  · rw [if_neg hs]
    exact concatenate_pair_apply_right 2 x₁ x₂ _ (ix5 b cb s r k) rfl rfl (ix5 b cb 0 r k) (fun a ha => match a, ha with
      | ⟨0, _⟩, _ => rfl
      | ⟨1, _⟩, _ => rfl
      | ⟨2, _⟩, ha => absurd rfl ha
      | ⟨3, _⟩, _ => rfl
      | ⟨4, _⟩, _ => rfl) (by show (0 : Nat) + 1 = s.val; have := s.isLt; omega)

/-- The five operations read at an index: channel 256·cb + 128·s + r of the result is array s at (cb, r). -/
theorem tail_apply (A B : FVec Ideal S8x2x128x19 .f32) (b : Fin 8) (ch : Fin 512) (k : Fin 19) (z : Fin 1) :
    tail A B (ix4 b ch k z)
      = if ch.val / 128 % 2 = 0 then A (ix4 b (⟨ch.val / 256, by omega⟩ : Fin 2) (⟨ch.val % 128, by omega⟩ : Fin 128) k)
        else B (ix4 b (⟨ch.val / 256, by omega⟩ : Fin 2) (⟨ch.val % 128, by omega⟩ : Fin 128) k) := by
  unfold tail
  refine (broadcastInDim_apply _ bcast_S8x512x19_S8x512x19x1_0_1_2 _ (ix4 b ch k z) (ix3 b ch k) (fun a => match a with
    | ⟨0, _⟩ => by show b.val = if (8 : Nat) = 1 then 0 else b.val; rw [if_neg (by decide)]
    | ⟨1, _⟩ => by show ch.val = if (512 : Nat) = 1 then 0 else ch.val; rw [if_neg (by decide)]
    | ⟨2, _⟩ => by show k.val = if (19 : Nat) = 1 then 0 else k.val; rw [if_neg (by decide)])).trans ?_
  refine (shapeCast_apply _ shapeCasts_S8x2x2x128x19_S8x512x19 (ix3 b ch k)
    (ix5 b (⟨ch.val / 256, by omega⟩ : Fin 2) (⟨ch.val / 128 % 2, by omega⟩ : Fin 2) (⟨ch.val % 128, by omega⟩ : Fin 128) k) ?_).trans ?_
  · rw [Shape.rowMajor_val_five, Shape.rowMajor_val_three]
    show (((b.val * 2 + ch.val / 256) * 2 + ch.val / 128 % 2) * 128 + ch.val % 128) * 19 + k.val = (b.val * 512 + ch.val) * 19 + k.val
    have := ch.isLt
    omega
  · rw [side_apply, addUnit_apply, addUnit_apply]

/-- If the region left the two arrangements of the specification in its results, the program's result is the
    specification's kernel arrangement. -/
theorem tail_Gk (c : Dev nD) (P : Cert.Spec.SP.Idx → EReal) (X : Cert.Spec.SX.Idx → EReal)
    (h0 : W2 m c (Proc.devRef .tc main_v2_0) = Cert.Spec.OA P X) (h1 : W2 m c (Proc.devRef .tc main_v2_1) = Cert.Spec.OB P X) :
    W3 m c (Proc.devRef .tc main_v7) = Cert.Spec.Gk P X := by
  refine (W3_main_v7 m c).trans ?_
  rw [h0, h1]
  funext j
  obtain ⟨b, ch, k, z, rfl⟩ : ∃ (b : Fin 8) (ch : Fin 512) (k : Fin 19) (z : Fin 1), j = ix4 b ch k z :=
    ⟨j 0, j 1, j 2, j 3, eq_ix4 j⟩
  rw [tail_apply, Cert.Spec.Gk_apply]
  by_cases hs : ch.val / 128 % 2 = 0
  · -- an even block: channel 256·cb + r
    rw [if_pos hs, Cert.Spec.OA_apply]
    have e : Cert.Spec.chA (⟨ch.val / 256, by omega⟩ : Fin 2) (⟨ch.val % 128, by omega⟩ : Fin 128) = ch :=
      Fin.ext (by show 256 * (ch.val / 256) + ch.val % 128 = ch.val; omega)
    rw [e]
  · -- an odd block: channel 256·cb + 128 + r
    rw [if_neg hs, Cert.Spec.OB_apply]
    have e : Cert.Spec.chB (⟨ch.val / 256, by omega⟩ : Fin 2) (⟨ch.val % 128, by omega⟩ : Fin 128) = ch :=
      Fin.ext (by show 256 * (ch.val / 256) + 128 + ch.val % 128 = ch.val; omega)
    rw [e]

/-- The region finds the scores array as the first reshape left it, -/
theorem V1_main_v1 (c : Dev nD) :
    V1 m c main_v1 = shapeCast S8x19x16384 (m ((c : Thread nD τ).loc main_arg1)) shapeCasts_S8x19x128x128_S8x19x16384 := by
  show StableHlo.after hostOps0 (W0 m c) (Proc.devRef .tc main_v1) = _
  after_results
  rfl

/-- and the features array as the second did. -/
theorem V1_main_v0 (c : Dev nD) :
    V1 m c main_v0 = shapeCast S8x512x16384 (m ((c : Thread nD τ).loc main_arg0)) shapeCasts_S8x512x128x128_S8x512x16384 := by
  show StableHlo.after hostOps0 (W0 m c) (Proc.devRef .tc main_v0) = _
  after_results
  rfl

end Cert.KernelIdeal.Frm

end
-- ==== Proof.Algebra.lean ====
/-
  The two arrangements of the specification agree on finite scores.
-/
import proofs.«176334_g94489280978_feedfinal_143_10_alg».proof.Proof.Spec

noncomputable section

namespace Cert.Spec

open Idealize.ShloMosaic Idealize.ShloMosaic.ValueIdx

/-- The coercion of a finite sum of reals is the sum of the coercions. -/
theorem coe_sum_real {ι : Type*} (s : Finset ι) (f : ι → ℝ) :
    (∑ i ∈ s, (f i : EReal)) = ((∑ i ∈ s, f i : ℝ) : EReal) := by
  classical
  refine Finset.induction_on s ?_ ?_
  · simp
  · intro a t ha ih
    rw [Finset.sum_insert ha, Finset.sum_insert ha, ih, EReal.coe_add]

/-- Scaling by one changes nothing. -/
theorem p1_eq (P : SP.Idx → EReal) (b : Fin 8) (k : Fin 19) (n : Fin 16384) : p1 P b k n = P (ix3 b k n) :=
  one_mul _

/-- The maximum against −∞ changes nothing, so the reference's row maximum is the kernel's. -/
theorem rowMaxR_eq (P : SP.Idx → EReal) (b : Fin 8) (k : Fin 19) : rowMaxR P b k = rowMax P b k := by
  have hf : (fun n : Fin 16384 => p1 P b k n) = fun n => P (ix3 b k n) := funext fun n => p1_eq P b k n
  unfold rowMaxR rowMax
  rw [hf]
  exact max_eq_right bot_le

/-- The maximum of a nonempty row of reals is a real: it lies strictly between −∞ and +∞. -/
theorem rowMax_real (P : SP.Idx → EReal) (hP : ∀ i, ∃ r : ℝ, P i = (r : EReal)) (b : Fin 8) (k : Fin 19) :
    ∃ m : ℝ, rowMax P b k = (m : EReal) := by
  have h1 : rowMax P b k < ⊤ := by
    unfold rowMax
    rw [Finset.fold_max_lt]
    refine ⟨bot_lt_top, fun n _ => ?_⟩
    obtain ⟨r, hr⟩ := hP (ix3 b k n)
    rw [hr]; exact EReal.coe_lt_top r
  have h2 : ⊥ < rowMax P b k := by
    unfold rowMax
    rw [Finset.lt_fold_max]
    refine Or.inr ⟨⟨0, by omega⟩, Finset.mem_univ _, ?_⟩
    obtain ⟨r, hr⟩ := hP (ix3 b k ⟨0, by omega⟩)
    rw [hr]; exact EReal.bot_lt_coe r
  exact ⟨(rowMax P b k).toReal, (EReal.coe_toReal h1.ne h2.ne').symm⟩

/-- Each exponential is a positive real. -/
theorem ek_real (P : SP.Idx → EReal) (hP : ∀ i, ∃ r : ℝ, P i = (r : EReal)) (b : Fin 8) (k : Fin 19)
    (n : Fin 16384) : ∃ e : ℝ, 0 < e ∧ ek P b k n = (e : EReal) := by
  obtain ⟨m, hm⟩ := rowMax_real P hP b k
  obtain ⟨r, hr⟩ := hP (ix3 b k n)
  refine ⟨Real.exp (r - m), Real.exp_pos _, ?_⟩
  unfold ek
  rw [hr, hm, ← EReal.coe_sub]
  rfl

/-- The row's sum of exponentials is a positive real. -/
theorem zk_real_pos (P : SP.Idx → EReal) (hP : ∀ i, ∃ r : ℝ, P i = (r : EReal)) (b : Fin 8) (k : Fin 19) :
    ∃ z : ℝ, 0 < z ∧ zk P b k = (z : EReal) := by
  choose e he_pos he using fun n => ek_real P hP b k n
  refine ⟨∑ n, e n, Finset.sum_pos (fun n _ => he_pos n) Finset.univ_nonempty, ?_⟩
  unfold zk
  rw [← coe_sum_real]
  exact Finset.sum_congr rfl (fun n _ => he n)

/-- The reference's exponentials are the kernel's. -/
theorem er_eq (P : SP.Idx → EReal) (b : Fin 8) (k : Fin 19) (n : Fin 16384) : er P b k n = ek P b k n := by
  unfold er ek
  rw [p1_eq, rowMaxR_eq]

/-- The reference's row sum, started from zero, is the kernel's. -/
theorem zr_eq (P : SP.Idx → EReal) (b : Fin 8) (k : Fin 19) : zr P b k = zk P b k := by
  unfold zr zk
  rw [zero_add]
  exact Finset.sum_congr rfl (fun n _ => er_eq P b k n)

/-- Dividing by the positive real row sum is multiplying by its reciprocal: the two weights agree. -/
theorem wr_eq_wk (P : SP.Idx → EReal) (hP : ∀ i, ∃ r : ℝ, P i = (r : EReal)) (b : Fin 8) (k : Fin 19)
    (n : Fin 16384) : wr P b k n = wk P b k n := by
  obtain ⟨z, hz, hzk⟩ := zk_real_pos P hP b k
  unfold wr wk
  rw [er_eq, zr_eq, hzk, Ideal.div_coe hz.ne', Ideal.div_coe hz.ne', one_mul]

/-- On scores that are all real numbers the kernel's arrangement and the reference's are one function. -/
theorem Gk_eq_Gr (P : SP.Idx → EReal) (X : SX.Idx → EReal) (hP : ∀ i, ∃ r : ℝ, P i = (r : EReal)) : Gk P X = Gr P X := by
  funext j
  obtain ⟨b, c, k, z, rfl⟩ : ∃ b c k z, j = ix4 b c k z := ⟨_, _, _, _, eq_ix4 j⟩
  rw [Gk_apply, Gr_apply]
  refine Finset.sum_congr rfl (fun n _ => ?_)
  rw [wr_eq_wk P hP b k n, mul_comm]

end Cert.Spec

end
-- ==== Proof.Finite.lean ====
/-
  The precondition read at an entry: every score the kernel is given is a real number.
-/
import proofs.«176334_g94489280978_feedfinal_143_10_alg».proof.Defs
import proofs.«176334_g94489280978_feedfinal_143_10_alg».proof.Proof.Gen.Pre_finite_inputs
import Idealize.ShloMosaic.Lib.ReduceAll
import Idealize.ShloMosaic.Lib.ValueIdx

noncomputable section

namespace Cert.Finite

open Idealize.ShloMosaic Idealize.ShloMosaic.TcCoe Idealize.SL.Sem

/-- The shape of a scalar has one index. -/
instance subsingleton_scalar_idx : Subsingleton Cert.Pre_finite_inputs.S_.Idx :=
  ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real whose absolute value lies strictly below +∞ is a real. -/
theorem real_of_abs_lt_inf (x : EReal)
    (hx : Ideal.cmp .olt (max x (-x)) (Ideal.ofBits .f32 0x7F800000#32) = 1#1) : ∃ r : ℝ, x = (r : EReal) := by
  rw [ofBits_inf] at hx
  have hlt : max x (-x) < ⊤ := by
    by_contra hn
    simp [Ideal.cmp, hn] at hx
  induction x using EReal.rec with
  | bot => simp at hlt
  | top => simp at hlt
  | coe r => exact ⟨r, rfl⟩

/-- Under the precondition every entry of the scores argument, on every device, is a real number. -/
theorem scores_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S8x19x128x128.Idx) :
    ∃ r : ℝ, m ((c.tc : Thread Cert.KernelIdeal.nD Cert.KernelIdeal.τ).loc Cert.KernelIdeal.main_arg1) i = (r : EReal) := by
  have h0 := congrFun (h c) ValueIdx.ix0
  dsimp only [Cert.Pre_finite_inputs.fn] at h0
  obtain ⟨_, h2⟩ := IntOp.andi_eq_one.1 h0
  have h3 := Host.reduce_andi_all _ _ _ _ _ h2 i
  exact real_of_abs_lt_inf _ h3

end Cert.Finite

end
-- ==== Proof.RefG.lean ====
/-
  The reference's result, one operation at a time, is the specification's reference arrangement of the two
  reshaped inputs.
-/
import proofs.«176334_g94489280978_feedfinal_143_10_alg».proof.Proof.Spec
import proofs.«176334_g94489280978_feedfinal_143_10_alg».proof.Proof.Gen.ReferenceIdeal.Read
import Idealize.ShloMosaic.Lib.IdealHost

noncomputable section

namespace Cert.RefG

open Cert.ReferenceIdeal Cert.ReferenceIdeal.Gen Cert.ReferenceIdeal.Read
open Idealize.ShloMosaic Idealize.ShloMosaic.TcCoe Idealize.ShloMosaic.ValueIdx

/-- The f32 word of −∞ is the bottom extended real. -/
theorem ofBits_neg_inf : Ideal.ofBits .f32 0xFF800000#32 = (⊥ : EReal) := by
  simp [Ideal.ofBits, Ideal.ieee]

/-- The scores scaled by one, at (b, k, n). -/
theorem v3_at (x1 : (⟨S8x19x128x128, .f32⟩ : BufTy).Contents (Elt Ideal)) (b : Fin 8) (k : Fin 19) (n : Fin 16384) :
    val_main_v3 (F := Ideal) x1 (ix3 b k n) = Cert.Spec.p1 (val_main_v0 (F := Ideal) x1) b k n := by
  rw [val_main_v3_apply, val_main_v2_apply, val_main_cst_apply, Ideal.mulf_def, Ideal.ofBits_def, Ideal.ofBits_one_f32]
  rfl

/-- The one-axis reduction's source index over (b, k) with n on the dropped axis is (b, k, n). -/
theorem lift_at (h : S8x19x16384.Reduces [2] S8x19) (b : Fin 8) (k : Fin 19) (n : Fin (S8x19x16384.size 2)) :
    h.lift (ix2 b k) n = ix3 b k (⟨n.val, n.isLt⟩ : Fin 16384) := by
  funext c; apply Fin.ext
  match c with
  | ⟨0, _⟩ => rfl
  | ⟨1, _⟩ => rfl
  | ⟨2, _⟩ => rfl

/-- The row maximum of the scaled scores: the fold of max from −∞ over the positions. -/
theorem v4_at (x1 : (⟨S8x19x128x128, .f32⟩ : BufTy).Contents (Elt Ideal)) (b : Fin 8) (k : Fin 19) :
    val_main_v4 (F := Ideal) x1 (ix2 b k)
      = (Finset.univ : Finset (Fin 16384)).fold max (⊥ : EReal) (fun n => Cert.Spec.p1 (val_main_v0 (F := Ideal) x1) b k n) := by
  unfold val_main_v4
  generalize hy : val_main_v3 (F := Ideal) x1 = y
  have hred : S8x19x16384.Reduces [2] S8x19 := by decide
  rw [Host.reduce_eq_fold_single (s := S8x19x16384) (t := S8x19) (a := 2) (FloatOps.maximumf (F := Ideal) (φ := .f32)) y
    (val_main_cst_0 (F := Ideal)) reducesTo_S8x19x16384_S8x19_d2 hred h_S_ (ix2 b k)]
  have hinit : val_main_cst_0 (F := Ideal) (Shape.Idx.first h_S_) = (⊥ : EReal) := by
    rw [val_main_cst_0_apply, Ideal.ofBits_def, ofBits_neg_inf]
  have hf : (y ∘ hred.lift (ix2 b k)) = fun n : Fin 16384 => Cert.Spec.p1 (val_main_v0 (F := Ideal) x1) b k n := by
    funext n
    show y (hred.lift (ix2 b k) n) = _
    rw [lift_at hred b k n, ← hy]
    exact v3_at x1 b k n
  rw [hinit, hf]
  rfl

/-- The maximum taken once more against −∞. -/
theorem v6_at (x1 : (⟨S8x19x128x128, .f32⟩ : BufTy).Contents (Elt Ideal)) (b : Fin 8) (k : Fin 19) :
    val_main_v6 (F := Ideal) x1 (ix2 b k) = Cert.Spec.rowMaxR (val_main_v0 (F := Ideal) x1) b k := by
  rw [val_main_v6_apply, val_main_v5_apply, val_main_cst_1_apply, v4_at, Ideal.maximumf_def, Ideal.ofBits_def, ofBits_neg_inf]
  rfl

/-- The maximum, broadcast back along the positions. -/
theorem v8_at (x1 : (⟨S8x19x128x128, .f32⟩ : BufTy).Contents (Elt Ideal)) (b : Fin 8) (k : Fin 19) (n : Fin 16384) :
    val_main_v8 (F := Ideal) x1 (ix3 b k n) = Cert.Spec.rowMaxR (val_main_v0 (F := Ideal) x1) b k := by
  have e : idx_main_v7 (idx_main_v8 (ix3 b k n)) = ix2 b k :=
    funext fun a => Fin.ext (by match a with | ⟨0, _⟩ => rfl | ⟨1, _⟩ => rfl)
  rw [val_main_v8_apply, val_main_v7_apply, e]
  exact v6_at x1 b k

/-- The exponential of a scaled score less its row's maximum. -/
theorem v10_at (x1 : (⟨S8x19x128x128, .f32⟩ : BufTy).Contents (Elt Ideal)) (b : Fin 8) (k : Fin 19) (n : Fin 16384) :
    val_main_v10 (F := Ideal) x1 (ix3 b k n) = Cert.Spec.er (val_main_v0 (F := Ideal) x1) b k n := by
  rw [val_main_v10_apply, val_main_v9_apply, v3_at, v8_at, Ideal.hostUnary_exp_def, Ideal.subf_def]
  rfl

/-- The row's sum of the exponentials, from zero. -/
theorem v11_at (x1 : (⟨S8x19x128x128, .f32⟩ : BufTy).Contents (Elt Ideal)) (b : Fin 8) (k : Fin 19) :
    val_main_v11 (F := Ideal) x1 (ix2 b k) = Cert.Spec.zr (val_main_v0 (F := Ideal) x1) b k := by
  rw [val_main_v11_apply, val_main_cst_2_apply, Ideal.ofBits_def, Ideal.ofBits_zero_f32]
  unfold Cert.Spec.zr
  refine congrArg (0 + ·) (Finset.sum_congr rfl fun n _ => ?_)
  have e : idx_main_v11 (ix2 b k) n = ix3 b k n :=
    funext fun a => Fin.ext (by match a with | ⟨0, _⟩ => rfl | ⟨1, _⟩ => rfl | ⟨2, _⟩ => rfl)
  rw [e]
  exact v10_at x1 b k n

/-- The sum, broadcast back along the positions. -/
theorem v13_at (x1 : (⟨S8x19x128x128, .f32⟩ : BufTy).Contents (Elt Ideal)) (b : Fin 8) (k : Fin 19) (n : Fin 16384) :
    val_main_v13 (F := Ideal) x1 (ix3 b k n) = Cert.Spec.zr (val_main_v0 (F := Ideal) x1) b k := by
  have e : idx_main_v12 (idx_main_v13 (ix3 b k n)) = ix2 b k :=
    funext fun a => Fin.ext (by match a with | ⟨0, _⟩ => rfl | ⟨1, _⟩ => rfl)
  rw [val_main_v13_apply, val_main_v12_apply, e]
  exact v11_at x1 b k

/-- The quotient: the softmax weight. -/
theorem v14_at (x1 : (⟨S8x19x128x128, .f32⟩ : BufTy).Contents (Elt Ideal)) (b : Fin 8) (k : Fin 19) (n : Fin 16384) :
    val_main_v14 (F := Ideal) x1 (ix3 b k n) = Cert.Spec.wr (val_main_v0 (F := Ideal) x1) b k n := by
  rw [val_main_v14_apply, v10_at, v13_at, Ideal.hostDivf_def]
  rfl

/-- The reference's last stage is `Gr` of its first two stages (the reshaped scores and features). -/
theorem ref_is_Gr (x0 : (⟨S8x512x128x128, .f32⟩ : BufTy).Contents (Elt Ideal)) (x1 : (⟨S8x19x128x128, .f32⟩ : BufTy).Contents (Elt Ideal)) :
    val_main_v17 (F := Ideal) x0 x1 = Cert.Spec.Gr (val_main_v0 (F := Ideal) x1) (val_main_v1 (F := Ideal) x0) := by
  funext j
  obtain ⟨b, c, k, z, rfl⟩ : ∃ (b : Fin 8) (c : Fin 512) (k : Fin 19) (z : Fin 1), j = ix4 b c k z :=
    ⟨j 0, j 1, j 2, j 3, eq_ix4 j⟩
  rw [Cert.Spec.Gr_apply, val_main_v17_apply, val_main_v16_apply, val_main_v15_apply]
  refine Finset.sum_congr rfl fun n _ => ?_
  have el : lidx_main_v15 (idx_main_v16 (idx_main_v17 (ix4 b c k z))) n = ix3 b k n :=
    funext fun a => Fin.ext (by match a with | ⟨0, _⟩ => rfl | ⟨1, _⟩ => rfl | ⟨2, _⟩ => rfl)
  have er : ridx_main_v15 (idx_main_v16 (idx_main_v17 (ix4 b c k z))) n = ix3 b c n :=
    funext fun a => Fin.ext (by match a with | ⟨0, _⟩ => rfl | ⟨1, _⟩ => rfl | ⟨2, _⟩ => rfl)
  rw [el, er, v14_at]

end Cert.RefG

end
-- ==== Proof.lean ====
/-
  Softmax-weighted spatial pooling: out[b, c, k] = Σ over the 16384 spatial positions n of
  features[b, c, n] · softmax over n of scores[b, k, ·] at n, for features [8, 512, 128, 128] and scores
  [8, 19, 128, 128], the result [8, 512, 19, 1].

  The kernel walks a grid of 8 batch rows × 2 points. At the first point of a row it forms the row's weights —
  exp(score − row maximum) times the reciprocal of the row's sum of those — in a scratch buffer that the second
  point reuses; every point contracts two blocks of 128 feature channels against the weights, the even block into
  one result array, the odd block into another (the two windows read the one features array, each holding half of
  it); five layout operations then interleave the two results into the channel axis. The reference scales the scores
  by one, takes exp(score − max(−∞, row maximum)) over the row's sum as a quotient, and contracts weights against
  features in one batched product, then transposes.

  The frames: each program runs to the end from any memory whose inputs are finite, nothing faults, and the two
  arguments end as they were — for the kernel and its idealization by the pipeline's proof data and the body's two
  cases, for the reference by its run. The idealization rewrote no operation. The values: at the extended reals the
  kernel's result is the specification's kernel arrangement of the reshaped inputs (blocks to arrays, then the
  layout operations read at an index), the reference's is its reference arrangement, and on finite scores the two
  arrangements are one function: every exponential is a positive real, so the row's sum is a positive real and
  dividing by it is multiplying by its reciprocal; 1 · p = p, max(−∞, x) = x, and the products commute.
-/
import proofs.«176334_g94489280978_feedfinal_143_10_alg».proof.Defs
import proofs.«176334_g94489280978_feedfinal_143_10_alg».proof.Proof.Gen.Kernel
import proofs.«176334_g94489280978_feedfinal_143_10_alg».proof.Proof.Gen.KernelIdeal
import proofs.«176334_g94489280978_feedfinal_143_10_alg».proof.Proof.Gen.ReferenceIdeal
import proofs.«176334_g94489280978_feedfinal_143_10_alg».proof.Proof.Gen.Pre_finite_inputs
import proofs.«176334_g94489280978_feedfinal_143_10_alg».proof.Proof.Gen.ReferenceIdeal.Run
import proofs.«176334_g94489280978_feedfinal_143_10_alg».proof.Proof.Gen.ReferenceIdeal.Read
import proofs.«176334_g94489280978_feedfinal_143_10_alg».proof.Proof.KB.Launch
import proofs.«176334_g94489280978_feedfinal_143_10_alg».proof.Proof.KI.Launch
import proofs.«176334_g94489280978_feedfinal_143_10_alg».proof.Proof.KI.Blocks
import proofs.«176334_g94489280978_feedfinal_143_10_alg».proof.Proof.KI.Tail
import proofs.«176334_g94489280978_feedfinal_143_10_alg».proof.Proof.Algebra
import proofs.«176334_g94489280978_feedfinal_143_10_alg».proof.Proof.Finite
import proofs.«176334_g94489280978_feedfinal_143_10_alg».proof.Proof.RefG
import Idealize.ShloMosaic.Adequacy
import Idealize.ShloMosaic.Init

noncomputable section

namespace Cert.Proof

open Idealize.ShloMosaic Idealize.ShloMosaic.TcCoe Idealize.SL.Sem

/-- The kernel's result, at the extended reals, is the specification's kernel arrangement of the two arrays the
    region reads: the two result arrays block by block, then the layout operations. -/
theorem kernel_value (m : (ℓ : Loc Cert.KernelIdeal.nD Cert.KernelIdeal.τ Cert.KernelIdeal.sig) → Buf (Elt Ideal) ℓ)
    (c : Dev Cert.KernelIdeal.nD) :
    Cert.KernelIdeal.Frm.W3 m c (Proc.devRef .tc Cert.KernelIdeal.main_v7)
      = Cert.Spec.Gk (Cert.KernelIdeal.Frm.V1 m c Cert.KernelIdeal.main_v1) (Cert.KernelIdeal.Frm.V1 m c Cert.KernelIdeal.main_v0) :=
  Cert.KernelIdeal.Frm.tail_Gk m c _ _
    ((Cert.KernelIdeal.Frm.W2_v2_0 m c).trans (Cert.KernelIdeal.Frm.final3 m c))
    ((Cert.KernelIdeal.Frm.W2_v2_1 m c).trans (Cert.KernelIdeal.Frm.final4 m c))

theorem frame_k : Cert.frame_Kernel (hKernel := Cert.Kernel.Gen.facts) (hPre_finite_inputs := Cert.Pre_finite_inputs.Gen.facts) :=
  fun m ρ _ => Cert.Kernel.Frm.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Frm.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the specification's kernel arrangement of the reshaped inputs in their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.Gk (Cert.KernelIdeal.Frm.V1 m c Cert.KernelIdeal.main_v1) (Cert.KernelIdeal.Frm.V1 m c Cert.KernelIdeal.main_v0), ?_, ?_⟩
  · refine (θ_run Cert.KernelIdeal.defs _ _).mono (fun r h c => ⟨?_, ?_, ?_⟩) (Cert.KernelIdeal.Frm.run_main (F := Ideal) m ρ)
    · exact (h c _ (Cert.KernelIdeal.Frm.mem_uc Cert.KernelIdeal.main_v7 (by decide))).trans (kernel_value m c)
    · exact (h c _ (Cert.KernelIdeal.Frm.mem_uc Cert.KernelIdeal.main_arg0 (by decide))).trans
        (Cert.KernelIdeal.Frm.W3_of_untouched m c Cert.KernelIdeal.main_arg0 (by decide) (by decide) (by decide) (by decide) (by decide) (by decide) (by decide) (by decide) (by decide))
    · exact (h c _ (Cert.KernelIdeal.Frm.mem_uc Cert.KernelIdeal.main_arg1 (by decide))).trans
        (Cert.KernelIdeal.Frm.W3_of_untouched m c Cert.KernelIdeal.main_arg1 (by decide) (by decide) (by decide) (by decide) (by decide) (by decide) (by decide) (by decide) (by decide))
  · refine (θ_run Cert.ReferenceIdeal.defs _ _).mono (fun _ h c => ⟨(h c).1.trans ?_, (h c).2⟩)
      (Cert.ReferenceIdeal.Value.run (F := Ideal) m' ρ')
    show _ = Cert.Spec.Gk (Cert.KernelIdeal.Frm.V1 m c Cert.KernelIdeal.main_v1) (Cert.KernelIdeal.Frm.V1 m c Cert.KernelIdeal.main_v0)
    rw [Cert.ReferenceIdeal.Read.val_main_v17_eq, Cert.RefG.ref_is_Gr, (hagree c).1, (hagree c).2,
      Cert.KernelIdeal.Frm.V1_main_v1, Cert.KernelIdeal.Frm.V1_main_v0]
    refine (Cert.Spec.Gk_eq_Gr _ _ (fun i => ?_)).symm
    exact Cert.Finite.scores_real m hpre c _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
